-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S3x128x128 : Shape := ⟨3, ![3, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg5 : FVec F S1 .f32) (main_arg6 : FVec F S3x128x128 .f32) (main_arg7 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S256x128 .f32) (main_arg3 : FVec F S128 .f32) (main_arg4 : FVec F S128x1 .f32) (main_arg5 : FVec F S1 .f32) (main_arg6 : FVec F S3x128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S3x128x128 : Shape := ⟨3, ![3, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S16000x256 : Shape := ⟨2, ![16000, 256]⟩
abbrev S1x16000 : Shape := ⟨2, ![1, 16000]⟩
abbrev S16000x128 : Shape := ⟨2, ![16000, 128]⟩
abbrev S16000 : Shape := ⟨1, ![16000]⟩
abbrev S50000 : Shape := ⟨1, ![50000]⟩
abbrev S2000x128 : Shape := ⟨2, ![2000, 128]⟩
abbrev S1x128x128 : Shape := ⟨3, ![1, 128, 128]⟩
abbrev S128x128 : Shape := ⟨2, ![128, 128]⟩

abbrev nBuf : Space → Nat
  | .hbm => 126
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S3x128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x256, .f32⟩
  | .hbm, ⟨47, _⟩ => ⟨S1x128, .f32⟩
  | .hbm, ⟨48, _⟩ => ⟨S1x128, .f32⟩
  | .hbm, ⟨49, _⟩ => ⟨S1x1, .f32⟩
  | .hbm, ⟨50, _⟩ => ⟨S1x800000, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .i1⟩
  | .hbm, ⟨59, _⟩ => ⟨S_, .f32⟩
  | .hbm, ⟨60, _⟩ => ⟨S50000, .f32⟩
  | .hbm, ⟨61, _⟩ => ⟨S50000, .i1⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000, .f32⟩
  | .hbm, ⟨80, _⟩ => ⟨S800000, .f32⟩
  | .hbm, ⟨81, _⟩ => ⟨S800000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000, .f32⟩
  | .hbm, ⟨91, _⟩ => ⟨S800000, .f32⟩
  | .hbm, ⟨92, _⟩ => ⟨S800000x1, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S800000x128, .f32⟩
  | .hbm, ⟨103, _⟩ => ⟨S800000x128, .f32⟩
  | .hbm, ⟨104, _⟩ => ⟨S_, .f32⟩
  | .hbm, ⟨105, _⟩ => ⟨S50000x128, .f32⟩
  | .hbm, ⟨106, _⟩ => ⟨S800000x1, .i32⟩
  | .hbm, ⟨107, _⟩ => ⟨S50000x128, .f32⟩
  | .hbm, ⟨108, _⟩ => ⟨S800000x1, .f32⟩
  | .hbm, ⟨109, _⟩ => ⟨S_, .i32⟩
  | .hbm, ⟨110, _⟩ => ⟨S800000, .i32⟩
  | .hbm, ⟨111, _⟩ => ⟨S800000, .i1⟩
  | .hbm, ⟨112, _⟩ => ⟨S_, .i32⟩
  | .hbm, ⟨113, _⟩ => ⟨S800000, .i32⟩
  | .hbm, ⟨114, _⟩ => ⟨S800000, .i32⟩
  | .hbm, ⟨115, _⟩ => ⟨S800000, .i32⟩
  | .hbm, ⟨116, _⟩ => ⟨S800000x1, .i32⟩
  | .hbm, ⟨117, _⟩ => ⟨S800000x128, .f32⟩
  | .hbm, ⟨118, _⟩ => ⟨S800000x128, .f32⟩
  | .hbm, ⟨119, _⟩ => ⟨S800000x128, .f32⟩
  | .hbm, ⟨120, _⟩ => ⟨S_, .f32⟩
  | .hbm, ⟨121, _⟩ => ⟨S50000x128, .f32⟩
  | .hbm, ⟨122, _⟩ => ⟨S800000x1, .i32⟩
  | .hbm, ⟨123, _⟩ => ⟨S50000x128, .f32⟩
  | .hbm, ⟨124, _⟩ => ⟨S1x128, .f32⟩
  | .hbm, ⟨125, _⟩ => ⟨S50000x128, .f32⟩
  | .local _ .vmem, ⟨0, _⟩ => ⟨S16000x256, .f32⟩
  | .local _ .vmem, ⟨1, _⟩ => ⟨S16000x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S1x16000, .f32⟩
  | .local _ .vmem, ⟨7, _⟩ => ⟨S1x16000, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S3x128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v5 : Ref sig .tc := ⟨.hbm, 27, rfl⟩
abbrev main_c_3 : Ref sig .tc := ⟨.hbm, 28, rfl⟩
abbrev main_v6 : Ref sig .tc := ⟨.hbm, 29, rfl⟩
abbrev main_v7 : Ref sig .tc := ⟨.hbm, 30, rfl⟩
abbrev main_c_4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_5 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_v33 : Ref sig .tc := ⟨.hbm, 65, rfl⟩
abbrev main_v34 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v35 : Ref sig .tc := ⟨.hbm, 70, rfl⟩
abbrev main_c_11 : Ref sig .tc := ⟨.hbm, 71, rfl⟩
abbrev main_v36 : Ref sig .tc := ⟨.hbm, 72, rfl⟩
abbrev main_v37 : Ref sig .tc := ⟨.hbm, 73, rfl⟩
abbrev main_c_12 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_13 : Ref sig .tc := ⟨.hbm, 82, rfl⟩
abbrev main_v45 : Ref sig .tc := ⟨.hbm, 83, rfl⟩
abbrev main_v46 : Ref sig .tc := ⟨.hbm, 84, rfl⟩
abbrev main_c_14 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_15 : Ref sig .tc := ⟨.hbm, 93, rfl⟩
abbrev main_v54 : Ref sig .tc := ⟨.hbm, 94, rfl⟩
abbrev main_v55 : Ref sig .tc := ⟨.hbm, 95, rfl⟩
abbrev main_c_16 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_17 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_18 : Ref sig .tc := ⟨.hbm, 109, rfl⟩
abbrev main_v67 : Ref sig .tc := ⟨.hbm, 110, rfl⟩
abbrev main_v68 : Ref sig .tc := ⟨.hbm, 111, rfl⟩
abbrev main_c_19 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  bcast_S800000_S800000x1_0 : S800000.BroadcastsInDim S800000x1 (![0] : Fin 1 → Fin S800000x1.rank)
  concatenates_S800000x128_S800000x128_S800000x256_d1 : Shape.Concatenates [S800000x128, S800000x128] S800000x256 1
  shapeCasts_S128_S1x128 : S128.ShapeCasts S1x128
  shapeCasts_S128x1_S1x128 : S128x1.ShapeCasts S1x128
  shapeCasts_S1_S1x1 : S1.ShapeCasts S1x1
  inb_S16000x256_S16000x256_0_0 : ∀ a, (![0, 0] : Fin 2 → Nat) a + S16000x256.size a ≤ S16000x256.size a
  h_S16000x256 : 0 < S16000x256.numel
  shapeCasts_S16000x256_S16000x256 : S16000x256.ShapeCasts S16000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  reduces_S16000x128_S16000 : S16000x128.Reduces [1] S16000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x16000_S1x16000_0_0 : ∀ a, (![0, 0] : Fin 2 → Nat) a + S1x16000.size a ≤ S1x16000.size a
  h_S1x16000 : 0 < S1x16000.numel
  shapeCasts_S1x16000_S16000 : S1x16000.ShapeCasts S16000
  shapeCasts_S16000_S1x16000 : S16000.ShapeCasts S1x16000
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S16000x256_S256x128_S16000x128_1_0_0_1_n_n_wf : DotDims.WF S16000x256 S256x128 S16000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x256.size a ≤ S800000x256.size a
  hwx0_0 : ∀ i : grid0.Coords, EltTy.bits .f32 = 32 ∨ (Rect.block (s := S800000x256) S16000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x800000.size a
  hwx0_5 : ∀ i : grid0.Coords, EltTy.bits .f32 = 32 ∨ (Rect.block (s := S1x800000) S1x16000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x256_S256x128_S16000x128_1_0_0_1_n_n : DotDims S16000x256 S256x128 S16000x128 where
  lhsContracting := [1]
  rhsContracting := [0]
  lhsNonContracting := [0]
  rhsNonContracting := [1]
  lhsBatch := []
  rhsBatch := []
  wf := dot_S16000x256_S256x128_S16000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v20) S16000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x16000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v78) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S3x128x128 : Shape := ⟨3, ![3, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S1x128x128 : Shape := ⟨3, ![1, 128, 128]⟩
abbrev S128x128 : Shape := ⟨2, ![128, 128]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S128, .f32⟩
  | 4 => ⟨S128x1, .f32⟩
  | 5 => ⟨S1, .f32⟩
  | 6 => ⟨S3x128x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S800000x256, .f32⟩
  | 31 => ⟨S800000x128, .f32⟩
  | 32 => ⟨S1x128, .f32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S800000x1, .f32⟩
  | 39 => ⟨S1x1, .f32⟩
  | 40 => ⟨S800000x1, .f32⟩
  | 41 => ⟨S800000x1, .f32⟩
  | 42 => ⟨S800000, .f32⟩
  | 43 => ⟨S800000, .f32⟩
  | 44 => ⟨S800000, .f32⟩
  | 45 => ⟨S_, .f32⟩
  | 46 => ⟨S800000, .f32⟩
  | 47 => ⟨S800000, .f32⟩
  | 48 => ⟨S_, .f32⟩
  | 49 => ⟨S800000, .f32⟩
  | 50 => ⟨S800000, .f32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S50000, .i1⟩
  | 58 => ⟨S_, .f32⟩
  | 59 => ⟨S50000, .f32⟩
  | 60 => ⟨S50000, .i1⟩
  | 61 => ⟨S_, .f32⟩
  | 62 => ⟨S_, .f32⟩
  | 63 => ⟨S50000, .f32⟩
  | 64 => ⟨S50000, .f32⟩
  | 65 => ⟨S50000, .f32⟩
  | 66 => ⟨S_, .f32⟩
  | 67 => ⟨S_, .f32⟩
  | 68 => ⟨S50000, .f32⟩
  | 69 => ⟨S50000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S800000, .f32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128x128, .f32⟩
  | 3 => ⟨S128x128, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.IndexRange.lean ====
/-
  What the precondition says about the edge list: every entry of `edge_index` is a node number, `0 ≤ v < 50000`.
  On such entries clamping to `[0, 49999]` changes nothing.
-/
import proofs.«416838_j24919400251997_4_alg».proof.Defs
import Idealize.ShloMosaic.Lib.ReduceAll
import Idealize.ShloMosaic.Lib.StableHlo.Predicate
import Idealize.ShloMosaic.Lib.ValueIdx

noncomputable section

namespace Cert.IndexRange

open Idealize.ShloMosaic Idealize.ShloMosaic.TcCoe Idealize.SL.Sem Idealize.ShloMosaic.ValueIdx

/-- A rank-0 array has one index. -/
instance : Subsingleton Cert.Pre_finite_inputs.S_.Idx := ⟨fun a b => funext fun d => d.elim0⟩

/-- A signed word in `[0, 50000)` is fixed by a maximum with 0 followed by a minimum with 49999. -/
theorem clip_lane (w : BitVec 32) (h0 : 0 ≤ w.toInt) (h1 : w.toInt < 50000) :
    IntOp.minsi 49999#32 (IntOp.maxsi 0#32 w) = w := by
  have e0 : (0#32 : BitVec 32).toInt = 0 := by decide
  have e1 : (49999#32 : BitVec 32).toInt = 49999 := by decide
  have hmax : IntOp.maxsi 0#32 w = w := by
    unfold IntOp.maxsi
    split
    · next hc =>
      rw [BitVec.slt_iff_toInt_lt, e0] at hc
      exact BitVec.eq_of_toInt_eq (by rw [e0]; omega)
    · rfl
  rw [hmax]
  unfold IntOp.minsi
  split
  · next hc =>
    rw [BitVec.slt_iff_toInt_lt, e1] at hc
    exact BitVec.eq_of_toInt_eq (by rw [e1]; omega)
  · rfl

/-- Under the precondition every entry of the edge list, read as a signed word, is a node number. -/
theorem index_range [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x800000.Idx) :
    0 ≤ ((m ((c.tc : Thread Cert.KernelIdeal.nD Cert.KernelIdeal.τ).loc Cert.KernelIdeal.main_arg1) : IVec Cert.KernelIdeal.S2x800000 32) i).toInt
      ∧ ((m ((c.tc : Thread Cert.KernelIdeal.nD Cert.KernelIdeal.τ).loc Cert.KernelIdeal.main_arg1) : IVec Cert.KernelIdeal.S2x800000 32) i).toInt < 50000 := by
  -- the predicate's one result word is 1
  have e := congrFun (hpre c) ValueIdx.ix0
  dsimp only [Cert.Pre_finite_inputs.fn, Cert.Pre_finite_inputs.fn_part1, Cert.Pre_finite_inputs.fn_part2] at e
  -- its last two conjuncts are the two comparisons of the edge list, each reduced over all entries
  obtain ⟨e1, hlt⟩ := IntOp.andi_eq_one.1 e
  obtain ⟨-, hge⟩ := IntOp.andi_eq_one.1 e1
  have hge' := Host.reduce_andi_all _ _ _ _ _ hge i
  have hlt' := Host.reduce_andi_all _ _ _ _ _ hlt i
  have z0 : (0#32 : BitVec 32).toInt = 0 := by decide
  have z1 : (50000#32 : BitVec 32).toInt = 50000 := by decide
  refine ⟨?_, ?_⟩
  · have := IntOp.cmpi_sge.1 hge'
    rw [show (broadcastInDim Cert.Pre_finite_inputs.S2x800000 ![] Cert.Pre_finite_inputs.Facts.bcast_S_S2x800000
          (constantI Cert.Pre_finite_inputs.S_ 32 0#32) i) = 0#32 from rfl, z0] at this
    exact this
  · have := IntOp.cmpi_slt.1 hlt'
    rw [show (broadcastInDim Cert.Pre_finite_inputs.S2x800000 ![] Cert.Pre_finite_inputs.Facts.bcast_S_S2x800000
          (constantI Cert.Pre_finite_inputs.S_ 32 50000#32) i) = 50000#32 from rfl, z1] at this
    exact this

/-- Clamping a vector of node numbers to `[0, 49999]` (a maximum with zeros, then a minimum with 49999s) is the identity. -/
theorem clip_eq (lo hi r : IVec Cert.KernelIdeal.S800000 32) (hlo : ∀ i, lo i = 0#32) (hhi : ∀ i, hi i = 49999#32)
    (h : ∀ i, 0 ≤ (r i).toInt ∧ (r i).toInt < 50000) : minsi hi (maxsi lo r) = r := by
  funext i
  show IntOp.minsi (hi i) (IntOp.maxsi (lo i) (r i)) = r i
  rw [hlo i, hhi i]
  exact clip_lane (r i) (h i).1 (h i).2

end Cert.IndexRange

end
-- ==== Proof.BridgeDefs.lean ====
/-
  Names shared by the modules that join the kernel program to the reference: the kernel program's argument arrays
  typed as the reference's stages take them, the range condition on the edge list, and the agreement of the
  edge weights.
-/
import proofs.«416838_j24919400251997_4_alg».proof.Proof.Gen.KernelIdeal.Frame
import proofs.«416838_j24919400251997_4_alg».proof.Proof.Gen.ReferenceIdeal.Read

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The kernel program's argument arrays on core `c`, typed as the reference's stages take them. -/
abbrev A0 (c : Dev nD) : FVec Ideal Cert.ReferenceIdeal.S50000x128 .f32 := m ((c : Thread nD τ).loc main_arg0)
abbrev A1 (c : Dev nD) : IVec Cert.ReferenceIdeal.S2x800000 32 := m ((c : Thread nD τ).loc main_arg1)
abbrev A2 (c : Dev nD) : FVec Ideal Cert.ReferenceIdeal.S256x128 .f32 := m ((c : Thread nD τ).loc main_arg2)
abbrev A3 (c : Dev nD) : FVec Ideal Cert.ReferenceIdeal.S128 .f32 := m ((c : Thread nD τ).loc main_arg3)
abbrev A4 (c : Dev nD) : FVec Ideal Cert.ReferenceIdeal.S128x1 .f32 := m ((c : Thread nD τ).loc main_arg4)
abbrev A5 (c : Dev nD) : FVec Ideal Cert.ReferenceIdeal.S1 .f32 := m ((c : Thread nD τ).loc main_arg5)
abbrev A6 (c : Dev nD) : FVec Ideal Cert.ReferenceIdeal.S3x128x128 .f32 := m ((c : Thread nD τ).loc main_arg6)
abbrev A7 (c : Dev nD) : FVec Ideal Cert.ReferenceIdeal.S128 .f32 := m ((c : Thread nD τ).loc main_arg7)

/-- Every entry of the edge list is a node number. -/
abbrev InRange (c : Dev nD) : Prop :=
  ∀ i : S2x800000.Idx, 0 ≤ ((m ((c : Thread nD τ).loc main_arg1) : IVec S2x800000 32) i).toInt
    ∧ ((m ((c : Thread nD τ).loc main_arg1) : IVec S2x800000 32) i).toInt < 50000

/-- The first region's output, as the flat vector the host reads it as, being the reference's edge weights. -/
abbrev EdgeAgree (c : Dev nD) : Prop :=
  shapeCast S800000 (W6 m ρ c (Proc.devRef .tc main_v24) : S1x800000.Idx → EReal) shapeCasts_S1x800000_S800000
    = Cert.ReferenceIdeal.Read.val_main_v34 (F := Ideal) (A0 m c) (A1 m c) (A2 m c) (A3 m c) (A4 m c) (A5 m c)

end Cert.Bridge

end
-- ==== Proof.Spec.lean ====
/-
  The two dense maps of the edge-weighted Chebyshev layer, as plain functions of arrays indexed by `Fin`,
  over the extended reals.

  * `edgeWeight`: the weight of edge `e`. Its feature row `feat e` (the two endpoint rows of `x`, side by side,
    256 numbers) goes through one hidden layer of 128 units, `h j = max (∑ k, feat e k * w1 k j + b1 j) 0`,
    then through the linear read-out `∑ j, h j * w2 j + b2`, and the logistic function.
  * `chebCombine`: entry `(n, j)` of the layer's result from the three Chebyshev terms `T0 = x`, `T1 = tx1` and
    `T2 = 2 · s - x` (with `s` the propagated `T1`): `T0 · W0 + T1 · W1 + T2 · W2 + bias`, the three products summed
    in that order.
-/
import Idealize.ShloMosaic.PureOps.Ideal

noncomputable section

namespace Cert.Spec

open Idealize.ShloMosaic

/-- The weight of edge `e`: logistic of the read-out of the hidden layer applied to the edge's feature row. -/
def edgeWeight (feat : Fin 800000 → Fin 256 → EReal) (w1 : Fin 256 → Fin 128 → EReal) (b1 : Fin 128 → EReal)
    (w2 : Fin 128 → EReal) (b2 : EReal) (e : Fin 800000) : EReal :=
  Ideal.logistic
    ((∑ j : Fin 128, max ((∑ k : Fin 256, feat e k * w1 k j) + b1 j) (Ideal.ofBits .f32 0x00000000#32) * w2 j) + b2)

/-- Entry `(n, j)` of `x · W0 + tx1 · W1 + (2 · s - x) · W2 + bias`. -/
def chebCombine (x tx1 s : Fin 50000 → Fin 128 → EReal) (wc : Fin 3 → Fin 128 → Fin 128 → EReal)
    (bias : Fin 128 → EReal) (n : Fin 50000) (j : Fin 128) : EReal :=
  (((∑ k : Fin 128, x n k * wc 0 k j) + (∑ k : Fin 128, tx1 n k * wc 1 k j))
      + (∑ k : Fin 128, (Ideal.ofBits .f32 0x40000000#32 * s n k - x n k) * wc 2 k j))
    + bias j

end Cert.Spec

end
-- ==== Proof.EdgeKernel.lean ====
/-
  The first kernel region (the edge network), read as a value: after the region's 50 grid points have run, its
  output array — one row of 800000 numbers — holds at column `e` the edge weight of the feature row `e` of the
  region's first operand. Grid point `t` computes columns `16000 t … 16000 t + 15999` from rows
  `16000 t … 16000 t + 15999` of the features and from the whole weight arrays; the blocks tile the row.
-/
import proofs.«416838_j24919400251997_4_alg».proof.Proof.Gen.KernelIdeal.Frame
import proofs.«416838_j24919400251997_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Idealize.ShloMosaic Idealize.ShloMosaic.TcCoe Idealize.SL.Sem Idealize.ShloMosaic.ValueIdx
open Cert.KernelIdeal Cert.KernelIdeal.Gen

/-! ## The block's arithmetic at one column -/

/-- The left operand's index of the hidden layer's product, on its row axis: the output's row. -/
theorem lhs_hidden_0 (i : S16000x128.Idx) (q : dot_S16000x256_S256x128_S16000x128_1_0_0_1_n_n.contr.Idx) :
    (dot_S16000x256_S256x128_S16000x128_1_0_0_1_n_n.lhsIdx i q 0).val = (i 0).val := by
  unfold DotDims.lhsIdx
  rw [dif_neg (show ¬(0 : Fin S16000x256.rank) ∈ dot_S16000x256_S256x128_S16000x128_1_0_0_1_n_n.lhsBatch by decide), dif_pos (show (0 : Fin S16000x256.rank) ∈ dot_S16000x256_S256x128_S16000x128_1_0_0_1_n_n.lhsNonContracting by decide)]
  rfl
/-- … and on its column axis: the contracted coordinate. -/
theorem lhs_hidden_1 (i : S16000x128.Idx) (q : dot_S16000x256_S256x128_S16000x128_1_0_0_1_n_n.contr.Idx) :
    (dot_S16000x256_S256x128_S16000x128_1_0_0_1_n_n.lhsIdx i q 1).val = (q ⟨0, by decide⟩).val :=
  dot_S16000x256_S256x128_S16000x128_1_0_0_1_n_n.lhsIdx_val_of_single rfl i q
/-- The right operand's index on its row axis: the contracted coordinate. -/
theorem rhs_hidden_0 (i : S16000x128.Idx) (q : dot_S16000x256_S256x128_S16000x128_1_0_0_1_n_n.contr.Idx) :
    (dot_S16000x256_S256x128_S16000x128_1_0_0_1_n_n.rhsIdx i q 0).val = (q ⟨0, by decide⟩).val :=
  dot_S16000x256_S256x128_S16000x128_1_0_0_1_n_n.rhsIdx_val_of_single rfl i q
/-- … and on its column axis: the output's column. -/
theorem rhs_hidden_1 (i : S16000x128.Idx) (q : dot_S16000x256_S256x128_S16000x128_1_0_0_1_n_n.contr.Idx) :
    (dot_S16000x256_S256x128_S16000x128_1_0_0_1_n_n.rhsIdx i q 1).val = (i 1).val := by
  unfold DotDims.rhsIdx
  rw [dif_neg (show ¬(1 : Fin S256x128.rank) ∈ dot_S16000x256_S256x128_S16000x128_1_0_0_1_n_n.rhsBatch by decide), dif_pos (show (1 : Fin S256x128.rank) ∈ dot_S16000x256_S256x128_S16000x128_1_0_0_1_n_n.rhsNonContracting by decide)]
  rfl

/-- The hidden layer's product of a block of 16000 feature rows with the first weight matrix, at row `q` and unit `j`:
    the sum over the 256 features. -/
theorem hidden_product_apply (x0 : FVec Ideal S16000x256 .f32) (x1 : FVec Ideal S256x128 .f32) (q : Fin 16000) (j : Fin 128) :
    matmul dot_S16000x256_S256x128_S16000x128_1_0_0_1_n_n none x0 x1 (constant S16000x128 .f32 0x00000000#32) (ix2 q j)
      = ∑ k : Fin 256, x0 (ix2 q k) * x1 (ix2 k j) := by
  show FloatOps.matmul dot_S16000x256_S256x128_S16000x128_1_0_0_1_n_n none x0 x1 (constant S16000x128 .f32 0x00000000#32) (ix2 q j) = _
  rw [Ideal.matmul_constant_zero_apply, ← Equiv.sum_comp (contrEquiv1 dot_S16000x256_S256x128_S16000x128_1_0_0_1_n_n 256 rfl rfl).symm]
  refine Finset.sum_congr rfl fun k _ => ?_
  have hk := contrEquiv1_symm_val dot_S16000x256_S256x128_S16000x128_1_0_0_1_n_n 256 rfl rfl k
  have el : dot_S16000x256_S256x128_S16000x128_1_0_0_1_n_n.lhsIdx (ix2 q j) ((contrEquiv1 dot_S16000x256_S256x128_S16000x128_1_0_0_1_n_n 256 rfl rfl).symm k) = ix2 q k := funext fun a => Fin.ext (by
    match a with
    | ⟨0, _⟩ => exact lhs_hidden_0 _ _
    | ⟨1, _⟩ => exact (lhs_hidden_1 _ _).trans hk)
  have er : dot_S16000x256_S256x128_S16000x128_1_0_0_1_n_n.rhsIdx (ix2 q j) ((contrEquiv1 dot_S16000x256_S256x128_S16000x128_1_0_0_1_n_n 256 rfl rfl).symm k) = ix2 k j := funext fun a => Fin.ext (by
    match a with
    | ⟨0, _⟩ => exact (rhs_hidden_0 _ _).trans hk
    | ⟨1, _⟩ => exact rhs_hidden_1 _ _)
  rw [el, er]

/-- The sum over the 128 hidden units (the lane axis) of a 16000 × 128 block, at row `q`. -/
theorem lane_sum_apply (v : FVec Ideal S16000x128 .f32) (h : S16000x128.Reduces [1] S16000) (hφ : FKind.Formats .f32)
    (hacc : (0x00000000#32 : BitVec 32) = FKind.add.neutral .f32 hφ) (q : Fin 16000) :
    multiReduction .add [1] S16000 v 0x00000000#32 h hφ hacc (ix1 q) = ∑ j : Fin 128, v (ix2 q j) := by
  refine (Ideal.multiReduction_add_single v 0x00000000#32 h hφ hacc (ix1 q)).trans ?_
  refine Finset.sum_congr rfl fun j _ => congrArg v ?_
  funext a; apply Fin.ext
  match a with
  | ⟨0, _⟩ => rfl
  | ⟨1, _⟩ => rfl

/-- What the body stores at column `q` of its block: the edge weight computed from row `q` of the feature block. -/
theorem block_weight_apply (x0 : Vec Ideal S16000x256 .f32) (x1 : Vec Ideal S256x128 .f32) (x2 : Vec Ideal S1x128 .f32)
    (x3 : Vec Ideal S1x128 .f32) (x4 : Vec Ideal S1x1 .f32) (q : Fin 16000) :
    k0_pay1 (F := Ideal) x0 x1 x2 x3 x4 (ix2 (0 : Fin 1) q)
      = Ideal.logistic ((∑ j : Fin 128, max ((∑ k : Fin 256, x0 (ix2 q k) * x1 (ix2 k j)) + x2 (ix2 (0 : Fin 1) j))
            (Ideal.ofBits .f32 0x00000000#32) * x3 (ix2 (0 : Fin 1) j)) + x4 (ix2 (0 : Fin 1) (0 : Fin 1))) := by
  unfold k0_pay1
  refine (shapeCast_a_1a_apply _ shapeCasts_S16000_S1x16000 (0 : Fin 1) q).trans ?_
  show Ideal.logistic (_ + _) = Ideal.logistic (_ + _)
  refine congrArg Ideal.logistic (congrArg₂ (· + ·) ?_ ?_)
  · refine (lane_sum_apply _ _ _ _ q).trans (Finset.sum_congr rfl fun j _ => ?_)
    show max (matmul dot_S16000x256_S256x128_S16000x128_1_0_0_1_n_n none _ x1 (constant S16000x128 .f32 0x00000000#32) (ix2 q j) + broadcastTo S16000x128 _ broadcasts_S1x128_S16000x128 (ix2 q j)) (Ideal.ofBits .f32 0x00000000#32) * broadcastTo S16000x128 _ broadcasts_S1x128_S16000x128 (ix2 q j) = _
    rw [shapeCast_self, shapeCast_self, shapeCast_self, hidden_product_apply, broadcastTo_1b_ab_apply, broadcastTo_1b_ab_apply]
  · show x4 _ = x4 _
    refine congrArg x4 (funext fun a => Fin.ext ?_)
    match a with
    | ⟨0, _⟩ => rfl
    | ⟨1, _⟩ => rfl

/-- The weight of the edge a block's column `q` stands for, once row `q` of the feature block is known to be row `e` of
    the whole feature array: the body's stored value there is the specification's edge weight of `e`. -/
theorem block_weight_eq (x0 : Vec Ideal S16000x256 .f32) (x1 : Vec Ideal S256x128 .f32) (x2 : Vec Ideal S1x128 .f32)
    (x3 : Vec Ideal S1x128 .f32) (x4 : Vec Ideal S1x1 .f32) (a0 : S800000x256.Idx → EReal) (q : Fin 16000) (e : Fin 800000)
    (h0 : ∀ k : Fin 256, x0 (ix2 q k) = a0 (ix2 e k)) :
    k0_pay1 (F := Ideal) x0 x1 x2 x3 x4 (ix2 (0 : Fin 1) q)
      = Cert.Spec.edgeWeight (fun e k => a0 (ix2 e k)) (fun k j => x1 (ix2 k j)) (fun j => x2 (ix2 (0 : Fin 1) j))
          (fun j => x3 (ix2 (0 : Fin 1) j)) (x4 (ix2 (0 : Fin 1) (0 : Fin 1))) e := by
  refine (block_weight_apply x0 x1 x2 x3 x4 q).trans ?_
  unfold Cert.Spec.edgeWeight
  simp only [h0]

/-! ## From blocks to the row -/

/-- The row of all 800000 edge weights as one function of the five arrays the region reads. -/
abbrev weightRow (a0 : S800000x256.Idx → EReal) (a1 : S256x128.Idx → EReal) (a2 : S1x128.Idx → EReal)
    (a3 : S1x128.Idx → EReal) (a4 : S1x1.Idx → EReal) : S1x800000.Idx → EReal :=
  fun i => Cert.Spec.edgeWeight (fun e k => a0 (ix2 e k)) (fun k j => a1 (ix2 k j)) (fun j => a2 (ix2 (0 : Fin 1) j))
    (fun j => a3 (ix2 (0 : Fin 1) j)) (a4 (ix2 (0 : Fin 1) (0 : Fin 1))) (i 1)

theorem zero_offsets : (![0, 0] : Fin 2 → Nat) = fun _ => 0 := funext fun a => by fin_cases a <;> rfl

/-- Where each window's block sits at grid point `t`: the feature window at block row `t`, the output window at block
    column `t`, every other window at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

variable (V : (c : Dev nD) → (b : Ref sig .tc) → Buf (Elt Ideal) ((c : Thread nD τ).loc b))

/-- Row `q` of the feature block at point `t` is row `16000 t + q` of the feature array. -/
theorem feature_block_apply (c : Dev nD) (t : Fin cfg0.N) (q : Fin 16000) (k : Fin 256) (e : Fin 800000)
    (he : e.val = t.val * 16000 + q.val) :
    (iblk0 (F := Ideal) V c 0 t : Vec Ideal S16000x256 .f32) (ix2 q k) = (V c main_v20 : S800000x256.Idx → EReal) (ix2 e k) := by
  obtain ⟨e0, e1, -⟩ := block_indices t
  show (V c main_v20 : S800000x256.Idx → EReal) (((cfg0.win 0).blk t).view.emb (ix2 q k)) = _
  refine congrArg _ (funext fun a => Fin.ext ?_)
  match a with
  | ⟨0, _⟩ => show win0_0.index t (0 : Fin 2) * 16000 + 1 * q.val = e.val; omega
  | ⟨1, _⟩ => show win0_0.index t (1 : Fin 2) * 256 + 1 * k.val = k.val; omega

/-- The first weight matrix's one block is the whole matrix. -/
theorem w1_block (c : Dev nD) (t : Fin cfg0.N) :
    (iblk0 (F := Ideal) V c 1 t : Vec Ideal S256x128 .f32) = (V c main_arg2 : S256x128.Idx → EReal) := by
  obtain ⟨-, -, e0, e1, -⟩ := block_indices t
  funext y
  show (V c main_arg2 : S256x128.Idx → EReal) (((cfg0.win 1).blk t).view.emb y) = _
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The first bias row's one block is the whole row. -/
theorem b1_block (c : Dev nD) (t : Fin cfg0.N) :
    (iblk0 (F := Ideal) V c 2 t : Vec Ideal S1x128 .f32) = (V c main_v21 : S1x128.Idx → EReal) := by
  obtain ⟨-, -, -, -, e0, e1, -⟩ := block_indices t
  funext y
  show (V c main_v21 : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The read-out row's one block is the whole row. -/
theorem w2_block (c : Dev nD) (t : Fin cfg0.N) :
    (iblk0 (F := Ideal) V c 3 t : Vec Ideal S1x128 .f32) = (V c main_v22 : S1x128.Idx → EReal) := by
  obtain ⟨-, -, -, -, -, -, e0, e1, -⟩ := block_indices t
  funext y
  show (V c main_v22 : S1x128.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The read-out bias's one block is the whole 1 × 1 array. -/
theorem b2_block (c : Dev nD) (t : Fin cfg0.N) :
    (iblk0 (F := Ideal) V c 4 t : Vec Ideal S1x1 .f32) = (V c main_v23 : S1x1.Idx → EReal) := by
  obtain ⟨-, -, -, -, -, -, -, -, e0, e1, -⟩ := block_indices t
  funext y
  show (V c main_v23 : S1x1.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- What grid point `t` writes back is block `t` — columns `16000 t … 16000 t + 15999` — of the row of edge weights. -/
theorem flushed_eq (c : Dev nD) (t : Fin cfg0.N) :
    (dat0 (F := Ideal) V c).flushed 5 t
      = ((cfg0.win 5).blk t).view.read (Elt Ideal) (weightRow (V c main_v20) (V c main_arg2) (V c main_v21) (V c main_v22) (V c main_v23)) := by
  show (cfg0.win 5).cut (grid0.coords t) ((dat0 (F := Ideal) V c).after 5 t) = _
  rw [after0_5]
  unfold out0_5
  rw [View.canon_unit_zero zero_offsets]
  simp only [View.ld_unit_zero (S := S16000x256) zero_offsets, View.ld_unit_zero (S := S256x128) zero_offsets,
    View.ld_unit_zero (S := S1x128) zero_offsets, View.ld_unit_zero (S := S1x1) zero_offsets]
  rw [w1_block V c t, b1_block V c t, w2_block V c t, b2_block V c t]
  obtain ⟨-, -, -, -, -, -, -, -, -, -, e0, e1⟩ := block_indices t
  have hN : grid0.N = 50 := N_0
  have ht : t.val < 50 := by have h : t.val < grid0.N := t.isLt; omega
  funext j
  have hj0 : (j 0).val < 1 := (j 0).isLt
  have hj1 : (j 1).val < 16000 := (j 1).isLt
  have ej : (cfg0.win 5).xinj (grid0.coords t) j = ix2 (0 : Fin 1) (⟨(j 1).val, hj1⟩ : Fin 16000) := funext fun a => Fin.ext (by
    match a with
    | ⟨0, _⟩ => show (j 0).val = 0; omega
    | ⟨1, _⟩ => rfl)
  have ee : ((cfg0.win 5).blk t).view.emb j = ix2 (0 : Fin 1) (⟨t.val * 16000 + (j 1).val, by omega⟩ : Fin 800000) := funext fun a => Fin.ext (by
    match a with
    | ⟨0, _⟩ => show win0_5.index t (0 : Fin 2) * 1 + 1 * (j 0).val = 0; omega
    | ⟨1, _⟩ => show win0_5.index t (1 : Fin 2) * 16000 + 1 * (j 1).val = t.val * 16000 + (j 1).val; omega)
  show k0_pay1 (F := Ideal) (iblk0 V c 0 t) (V c main_arg2 : S256x128.Idx → EReal) (V c main_v21 : S1x128.Idx → EReal)
      (V c main_v22 : S1x128.Idx → EReal) (V c main_v23 : S1x1.Idx → EReal) ((cfg0.win 5).xinj (grid0.coords t) j)
    = weightRow (V c main_v20) (V c main_arg2) (V c main_v21) (V c main_v22) (V c main_v23) (((cfg0.win 5).blk t).view.emb j)
  rw [ej, ee]
  exact block_weight_eq (iblk0 V c 0 t) (V c main_arg2 : S256x128.Idx → EReal) (V c main_v21 : S1x128.Idx → EReal)
    (V c main_v22 : S1x128.Idx → EReal) (V c main_v23 : S1x1.Idx → EReal) (V c main_v20 : S800000x256.Idx → EReal)
    ⟨(j 1).val, hj1⟩ ⟨t.val * 16000 + (j 1).val, by omega⟩ (fun k => feature_block_apply V c t ⟨(j 1).val, hj1⟩ k _ rfl)

/-- Column `i` of the output row lies in point `t`'s block iff each coordinate is in the block's range on its axis. -/
theorem mem_block (t : Fin cfg0.N) (i : S1x800000.Idx) :
    i ∈ ((cfg0.win 5).blk t).view.set ↔ ∀ a : Fin 2, win0_5.index t a * S1x16000.size a ≤ (i a).val ∧ (i a).val < win0_5.index t a * S1x16000.size a + S1x16000.size a := by
  show i ∈ ((View.whole main_v24).slice (win0_5.rect t)).set ↔ _
  rw [View.set_slice_whole, Rect.mem_set_unit]
  exact Iff.rfl

/-- The 50 blocks tile the row: column `e` lies in the block of point `e / 16000`. -/
theorem covered (i : S1x800000.Idx) : ∃ t : Fin cfg0.N, (cfg0.win 5).flush t = true ∧ i ∈ ((cfg0.win 5).blk t).view.set := by
  have hi0 : (i 0).val < 1 := (i 0).isLt
  have hi1 : (i 1).val < 800000 := (i 1).isLt
  have hN : grid0.N = 50 := N_0
  have hlt : (i 1).val / 16000 < grid0.N := by omega
  obtain ⟨-, -, -, -, -, -, -, -, -, -, e0, e1⟩ := block_indices ⟨(i 1).val / 16000, hlt⟩
  refine ⟨⟨(i 1).val / 16000, hlt⟩, flush0_5 _, ?_⟩
  rw [mem_block]
  intro a
  match a with
  | ⟨0, _⟩ => show win0_5.index ⟨(i 1).val / 16000, hlt⟩ (0 : Fin 2) * 1 ≤ (i 0).val ∧ (i 0).val < win0_5.index ⟨(i 1).val / 16000, hlt⟩ (0 : Fin 2) * 1 + 1; omega
  | ⟨1, _⟩ => show win0_5.index ⟨(i 1).val / 16000, hlt⟩ (1 : Fin 2) * 16000 ≤ (i 1).val ∧ (i 1).val < win0_5.index ⟨(i 1).val / 16000, hlt⟩ (1 : Fin 2) * 16000 + 16000; have e1' : win0_5.index ⟨(i 1).val / 16000, hlt⟩ (1 : Fin 2) = (i 1).val / 16000 := e1; omega

/-- The output row after the region's last grid point is the row of edge weights. -/
theorem edge_row (c : Dev nD) :
    (dat0 (F := Ideal) V c).arrAt 5 cfg0.N = weightRow (V c main_v20) (V c main_arg2) (V c main_v21) (V c main_v22) (V c main_v23) :=
  (dat0 (F := Ideal) V c).arrAt_eq_of_cover 5 (weightRow (V c main_v20) (V c main_arg2) (V c main_v21) (V c main_v22) (V c main_v23)) (fun t _ => flushed_eq V c t) covered

/-- The region's output array after its last grid point, at column `e`: the edge weight of feature row `e`. -/
theorem edge_final (c : Dev nD) (e : Fin 800000) :
    ((dat0 (F := Ideal) V c).arrAt 5 cfg0.N : S1x800000.Idx → EReal) (ix2 0 e)
      = Cert.Spec.edgeWeight (fun e k => (V c main_v20 : S800000x256.Idx → EReal) (ix2 e k))
          (fun k j => (V c main_arg2 : S256x128.Idx → EReal) (ix2 k j))
          (fun j => (V c main_v21 : S1x128.Idx → EReal) (ix2 0 j))
          (fun j => (V c main_v22 : S1x128.Idx → EReal) (ix2 0 j))
          ((V c main_v23 : S1x1.Idx → EReal) (ix2 0 0)) e := by
  rw [edge_row V c]

end Cert.KernelIdeal.EdgeValue

end
-- ==== Proof.RefValues.lean ====
/-
  The reference's two dense maps, read index by index: its edge weights are `Cert.Spec.edgeWeight` of its gathered
  feature rows, and its result is `Cert.Spec.chebCombine` of `x`, its two propagated arrays, the weights and the bias.
-/
import proofs.«416838_j24919400251997_4_alg».proof.Proof.Gen.ReferenceIdeal.Read
import proofs.«416838_j24919400251997_4_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The composed index maps of the edge-weight stages, at indices given by coordinates -/

theorem idx28 (e : Fin 800000) : idx_main_v28 (ix1 e) = ix2 e (0 : Fin 1) :=
  funext fun a => Fin.ext (by match a with | ⟨0, _⟩ => exact Nat.div_one _ | ⟨1, _⟩ => rfl)
theorem lidx24 (e : Fin 800000) (z : Fin 1) (k : Fin 128) : lidx_main_v24 (ix2 e z) k = ix2 e k :=
  funext fun a => Fin.ext (by match a with | ⟨0, _⟩ => rfl | ⟨1, _⟩ => rfl)
theorem ridx24 (e : Fin 800000) (z : Fin 1) (k : Fin 128) : ridx_main_v24 (ix2 e z) k = ix2 k z :=
  funext fun a => Fin.ext (by match a with | ⟨0, _⟩ => rfl | ⟨1, _⟩ => rfl)
theorem lidx19 (e : Fin 800000) (j : Fin 128) (k : Fin 256) : lidx_main_v19 (ix2 e j) k = ix2 e k :=
  funext fun a => Fin.ext (by match a with | ⟨0, _⟩ => rfl | ⟨1, _⟩ => rfl)
theorem ridx19 (e : Fin 800000) (j : Fin 128) (k : Fin 256) : ridx_main_v19 (ix2 e j) k = ix2 k j :=
  funext fun a => Fin.ext (by match a with | ⟨0, _⟩ => rfl | ⟨1, _⟩ => rfl)
theorem idx21 (e : Fin 800000) (j : Fin 128) : idx_main_v21 (ix2 e j) = ix2 (0 : Fin 1) j :=
  funext fun a => Fin.ext (by match a with | ⟨0, _⟩ => rfl | ⟨1, _⟩ => rfl)
theorem idx20 (z : Fin 1) (j : Fin 128) : idx_main_v20 (ix2 z j) = ix1 j :=
  funext fun a => Fin.ext (by match a with | ⟨0, _⟩ => rfl)
theorem idx26 (e : Fin 800000) (z : Fin 1) : idx_main_v26 (ix2 e z) = ix2 (0 : Fin 1) (0 : Fin 1) :=
  funext fun a => Fin.ext (by match a with | ⟨0, _⟩ => rfl | ⟨1, _⟩ => rfl)
theorem idx25 (z w : Fin 1) : idx_main_v25 (ix2 z w) = ix1 (0 : Fin 1) :=
  funext fun a => Fin.ext (by match a with | ⟨0, _⟩ => rfl)

/-- The reference's edge weight of edge `e` is the edge weight of row `e` of its concatenated gathered features. -/
theorem ref_edge (x0 : FVec Ideal S50000x128 .f32) (x1 : IVec S2x800000 32) (x2 : FVec Ideal S256x128 .f32)
    (x3 : FVec Ideal S128 .f32) (x4 : FVec Ideal S128x1 .f32) (x5 : FVec Ideal S1 .f32) (e : Fin 800000) :
    val_main_v34 (F := Ideal) x0 x1 x2 x3 x4 x5 (ix1 e)
      = Cert.Spec.edgeWeight (fun e k => val_main_v18 (F := Ideal) x0 x1 (ix2 e k)) (fun k j => x2 (ix2 k j))
          (fun j => x3 (ix1 j)) (fun j => x4 (ix2 j 0)) (x5 (ix1 0)) e := by
  rw [val_main_v34_apply, val_main_v33_apply, val_main_cst_3_apply, val_main_v32_apply, val_main_v31_apply,
    val_main_cst_apply, val_main_v30_apply, val_main_v29_apply, val_main_v28_apply, val_main_v27_apply,
    val_main_v24_apply, val_main_v26_apply, val_main_v25_apply]
  simp only [val_main_v23_apply, val_main_v22_apply, val_main_v19_apply, val_main_v21_apply, val_main_v20_apply,
    val_main_call0_v0_apply, val_main_call0_cst_apply,
    idx28, lidx24, ridx24, lidx19, ridx19, idx21, idx20, idx26, idx25,
    Ideal.hostDivf_def, Ideal.hostUnary_exp_def, Ideal.hostNegf_def, Ideal.negf_def, Ideal.addf_def,
    Ideal.maximumf_def, Ideal.ofBits_def, Ideal.ofBits_one_f32]
  rfl

/-! ## The composed index maps of the combination stages, at indices given by coordinates -/

theorem lidx93 (n : Fin 50000) (j k : Fin 128) : lidx_main_v93 (ix2 n j) k = ix2 n k :=
  funext fun a => Fin.ext (by match a with | ⟨0, _⟩ => rfl | ⟨1, _⟩ => rfl)
theorem ridx93 (n : Fin 50000) (j k : Fin 128) : ridx_main_v93 (ix2 n j) k = ix2 k j :=
  funext fun a => Fin.ext (by match a with | ⟨0, _⟩ => rfl | ⟨1, _⟩ => rfl)
theorem lidx96 (n : Fin 50000) (j k : Fin 128) : lidx_main_v96 (ix2 n j) k = ix2 n k :=
  funext fun a => Fin.ext (by match a with | ⟨0, _⟩ => rfl | ⟨1, _⟩ => rfl)
theorem ridx96 (n : Fin 50000) (j k : Fin 128) : ridx_main_v96 (ix2 n j) k = ix2 k j :=
  funext fun a => Fin.ext (by match a with | ⟨0, _⟩ => rfl | ⟨1, _⟩ => rfl)
theorem lidx100 (n : Fin 50000) (j k : Fin 128) : lidx_main_v100 (ix2 n j) k = ix2 n k :=
  funext fun a => Fin.ext (by match a with | ⟨0, _⟩ => rfl | ⟨1, _⟩ => rfl)
theorem ridx100 (n : Fin 50000) (j k : Fin 128) : ridx_main_v100 (ix2 n j) k = ix2 k j :=
  funext fun a => Fin.ext (by match a with | ⟨0, _⟩ => rfl | ⟨1, _⟩ => rfl)
/-- Row `k`, column `j` of a 128 × 128 matrix sits at position `k * 128 + j`, which splits back into `k` and `j`. -/
theorem idx92 (k j : Fin 128) : idx_main_v92 (ix2 k j) = ix3 (0 : Fin 1) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
theorem idx95 (k j : Fin 128) : idx_main_v95 (ix2 k j) = ix3 (0 : Fin 1) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
theorem idx99 (k j : Fin 128) : idx_main_v99 (ix2 k j) = ix3 (0 : Fin 1) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
theorem idx91 (z : Fin 1) (k j : Fin 128) : idx_main_v91 (ix3 z k j) = ix3 (0 : Fin 3) k j :=
  funext fun a => Fin.ext (by
    have hz := z.isLt
    match a with
    | ⟨0, _⟩ => show z.val = 0; omega
    | ⟨1, _⟩ => rfl
    | ⟨2, _⟩ => rfl)
theorem idx94 (z : Fin 1) (k j : Fin 128) : idx_main_v94 (ix3 z k j) = ix3 (1 : Fin 3) k j :=
  funext fun a => Fin.ext (by
    have hz := z.isLt
    match a with
    | ⟨0, _⟩ => show 1 + z.val = 1; omega
    | ⟨1, _⟩ => rfl
    | ⟨2, _⟩ => rfl)
theorem idx98 (z : Fin 1) (k j : Fin 128) : idx_main_v98 (ix3 z k j) = ix3 (2 : Fin 3) k j :=
  funext fun a => Fin.ext (by
    have hz := z.isLt
    match a with
    | ⟨0, _⟩ => show 2 + z.val = 2; omega
    | ⟨1, _⟩ => rfl
    | ⟨2, _⟩ => rfl)
theorem idx103 (n : Fin 50000) (j : Fin 128) : idx_main_v103 (ix2 n j) = ix2 (0 : Fin 1) j :=
  funext fun a => Fin.ext (by match a with | ⟨0, _⟩ => rfl | ⟨1, _⟩ => rfl)
theorem idx102 (z : Fin 1) (j : Fin 128) : idx_main_v102 (ix2 z j) = ix1 j :=
  funext fun a => Fin.ext (by match a with | ⟨0, _⟩ => rfl)

/-! ## The stages of the combination, read at an index -/

/-- The three weight matrices are the three slices of the weight array. -/
theorem w0_apply (x6 : FVec Ideal S3x128x128 .f32) (k j : Fin 128) :
    val_main_v92 (F := Ideal) x6 (ix2 k j) = x6 (ix3 (0 : Fin 3) k j) := by
  rw [val_main_v92_apply, idx92, val_main_v91_apply, idx91]
theorem w1_apply (x6 : FVec Ideal S3x128x128 .f32) (k j : Fin 128) :
    val_main_v95 (F := Ideal) x6 (ix2 k j) = x6 (ix3 (1 : Fin 3) k j) := by
  rw [val_main_v95_apply, idx95, val_main_v94_apply, idx94]
theorem w2_apply (x6 : FVec Ideal S3x128x128 .f32) (k j : Fin 128) :
    val_main_v99 (F := Ideal) x6 (ix2 k j) = x6 (ix3 (2 : Fin 3) k j) := by
  rw [val_main_v99_apply, idx99, val_main_v98_apply, idx98]

/-- The third Chebyshev term: twice the propagated second term, minus `x`. -/
theorem t2_apply (x0 : FVec Ideal S50000x128 .f32) (x1 : IVec S2x800000 32) (x2 : FVec Ideal S256x128 .f32)
    (x3 : FVec Ideal S128 .f32) (x4 : FVec Ideal S128x1 .f32) (x5 : FVec Ideal S1 .f32) (n : Fin 50000) (k : Fin 128) :
    val_main_v90 (F := Ideal) x0 x1 x2 x3 x4 x5 (ix2 n k)
      = Ideal.ofBits .f32 0x40000000#32 * val_main_v87 (F := Ideal) x0 x1 x2 x3 x4 x5 (ix2 n k) - x0 (ix2 n k) := by
  rw [val_main_v90_apply, val_main_v89_apply, val_main_v88_apply, val_main_cst_19_apply]
  rfl

/-- The bias, broadcast along the rows. -/
theorem bias_apply (x7 : FVec Ideal S128 .f32) (n : Fin 50000) (j : Fin 128) :
    val_main_v103 (F := Ideal) x7 (ix2 n j) = x7 (ix1 j) := by
  rw [val_main_v103_apply, idx103, val_main_v102_apply, idx102]

/-- The three matrix products, entry by entry. -/
theorem prod0_apply (x0 : FVec Ideal S50000x128 .f32) (x6 : FVec Ideal S3x128x128 .f32) (n : Fin 50000) (j : Fin 128) :
    val_main_v93 (F := Ideal) x0 x6 (ix2 n j) = ∑ k : Fin 128, x0 (ix2 n k) * x6 (ix3 (0 : Fin 3) k j) := by
  rw [val_main_v93_apply]
  refine Finset.sum_congr rfl fun k _ => ?_
  rw [lidx93, ridx93, w0_apply]
theorem prod1_apply (x0 : FVec Ideal S50000x128 .f32) (x1 : IVec S2x800000 32) (x2 : FVec Ideal S256x128 .f32)
    (x3 : FVec Ideal S128 .f32) (x4 : FVec Ideal S128x1 .f32) (x5 : FVec Ideal S1 .f32)
    (x6 : FVec Ideal S3x128x128 .f32) (n : Fin 50000) (j : Fin 128) :
    val_main_v96 (F := Ideal) x0 x1 x2 x3 x4 x5 x6 (ix2 n j)
      = ∑ k : Fin 128, val_main_v74 (F := Ideal) x0 x1 x2 x3 x4 x5 (ix2 n k) * x6 (ix3 (1 : Fin 3) k j) := by
  rw [val_main_v96_apply]
  refine Finset.sum_congr rfl fun k _ => ?_
  rw [lidx96, ridx96, w1_apply]
theorem prod2_apply (x0 : FVec Ideal S50000x128 .f32) (x1 : IVec S2x800000 32) (x2 : FVec Ideal S256x128 .f32)
    (x3 : FVec Ideal S128 .f32) (x4 : FVec Ideal S128x1 .f32) (x5 : FVec Ideal S1 .f32)
    (x6 : FVec Ideal S3x128x128 .f32) (n : Fin 50000) (j : Fin 128) :
    val_main_v100 (F := Ideal) x0 x1 x2 x3 x4 x5 x6 (ix2 n j)
      = ∑ k : Fin 128, (Ideal.ofBits .f32 0x40000000#32 * val_main_v87 (F := Ideal) x0 x1 x2 x3 x4 x5 (ix2 n k)
          - x0 (ix2 n k)) * x6 (ix3 (2 : Fin 3) k j) := by
  rw [val_main_v100_apply]
  refine Finset.sum_congr rfl fun k _ => ?_
  rw [lidx100, ridx100, w2_apply, t2_apply]

/-- The reference's result at `(n, j)` is the Chebyshev combination of `x` and its two propagated arrays. -/
theorem ref_comb (x0 : FVec Ideal S50000x128 .f32) (x1 : IVec S2x800000 32) (x2 : FVec Ideal S256x128 .f32)
    (x3 : FVec Ideal S128 .f32) (x4 : FVec Ideal S128x1 .f32) (x5 : FVec Ideal S1 .f32)
    (x6 : FVec Ideal S3x128x128 .f32) (x7 : FVec Ideal S128 .f32) (n : Fin 50000) (j : Fin 128) :
    val_main_v104 (F := Ideal) x0 x1 x2 x3 x4 x5 x6 x7 (ix2 n j)
      = Cert.Spec.chebCombine (fun n k => x0 (ix2 n k))
          (fun n k => val_main_v74 (F := Ideal) x0 x1 x2 x3 x4 x5 (ix2 n k))
          (fun n k => val_main_v87 (F := Ideal) x0 x1 x2 x3 x4 x5 (ix2 n k))
          (fun a k j => x6 (ix3 a k j)) (fun j => x7 (ix1 j)) n j := by
  rw [val_main_v104_apply, val_main_v101_apply, val_main_v97_apply, prod0_apply, prod1_apply, prod2_apply, bias_apply]
  rfl

end Cert.ReferenceIdeal.RefValue

end
-- ==== Proof.HostReads.lean ====
/-
  Reads of the reshapes and slices the program does on the host before and between its regions.
  A reshape keeps the row-major position, so a reshape between a vector and a one-row (or one-column) matrix reads the
  entry with the same running index; a one-row slice of a two-row matrix, flattened, reads an entry of that row, so a bound
  that holds for every entry of the matrix holds for every entry of the flattened row.
-/
import proofs.«416838_j24919400251997_4_alg».proof.KernelIdeal
import Idealize.ShloMosaic.Lib.Pipeline.Value
import Idealize.ShloMosaic.Lib.ValueIdx
import Idealize.ShloMosaic.Lib.ValueLayout

noncomputable section

namespace Cert.KernelIdeal.HostReads

open Idealize.ShloMosaic Idealize.ShloMosaic.ValueIdx Cert.KernelIdeal

/-- A vector of 128 numbers reshaped to one row: entry `(0, j)` of the row is entry `j` of the vector. -/
theorem cast_b1 (a : FVec Ideal S128 .f32) (h : S128.ShapeCasts S1x128) (j : Fin 128) :
    shapeCast S1x128 a h (ix2 0 j) = a (ix1 j) :=
  shapeCast_a_1a_apply a h 0 j

/-- A column of 128 numbers reshaped to one row: entry `(0, j)` of the row is entry `(j, 0)` of the column
    (both have running index `j`). -/
theorem cast_w2 (a : FVec Ideal S128x1 .f32) (h : S128x1.ShapeCasts S1x128) (j : Fin 128) :
    shapeCast S1x128 a h (ix2 0 j) = a (ix2 j 0) :=
  shapeCast_apply a h _ _ (by
    rw [Shape.rowMajor_val_two, Shape.rowMajor_val_two]
    show j.val * 1 + 0 = 0 * 128 + j.val
    omega)

/-- A one-entry vector reshaped to a one-by-one matrix keeps its entry. -/
theorem cast_b2 (a : FVec Ideal S1 .f32) (h : S1.ShapeCasts S1x1) :
    shapeCast S1x1 a h (ix2 0 0) = a (ix1 0) :=
  shapeCast_a_1a_apply a h 0 0

/-- A one-row matrix flattened to a vector: entry `e` of the vector is entry `(0, e)` of the row (any entry type). -/
theorem cast_row {α : Type} (y : S1x800000.Idx → α) (h : S1x800000.ShapeCasts S800000) (e : Fin 800000) :
    shapeCast S800000 y h (ix1 e) = y (ix2 0 e) :=
  shapeCast_1a_a_apply y h e

/-- Row `p` (0 or 1) of a two-row matrix, cut out as a one-row matrix and flattened, reads at `e` the matrix at `(p, e)`. -/
theorem row_read {α : Type} (p : Nat) (k : Fin 2) (hk : k.val = p) (a1 : S2x800000.Idx → α)
    (hs : S2x800000.Slices ![p, 0] S1x800000) (hc : S1x800000.ShapeCasts S800000) (e : Fin 800000) :
    shapeCast S800000 (extractStridedSlice S1x800000 ![p, 0] a1 hs) hc (ix1 e) = a1 (ix2 k e) := by
  rw [cast_row]
  exact slice2_axis0_apply p a1 hs 0 e k (by rw [hk]; rfl)

/-- Every entry of the flattened row 0 of a two-row matrix of words obeys a bound all the matrix's entries obey. -/
theorem row_range (a1 : IVec S2x800000 32) (hr : ∀ i, 0 ≤ (a1 i).toInt ∧ (a1 i).toInt < 50000)
    (hs : S2x800000.Slices ![0, 0] S1x800000) (hc : S1x800000.ShapeCasts S800000) (i : S800000.Idx) :
    0 ≤ ((shapeCast S800000 (extractStridedSlice S1x800000 ![0, 0] a1 hs) hc) i).toInt
      ∧ ((shapeCast S800000 (extractStridedSlice S1x800000 ![0, 0] a1 hs) hc) i).toInt < 50000 := by
  obtain ⟨e, rfl⟩ : ∃ e : Fin 800000, i = ix1 e := ⟨i 0, eq_ix1 i⟩
  rw [row_read 0 0 rfl a1 hs hc e]
  exact hr _

/-- The same for row 1. -/
theorem col_range (a1 : IVec S2x800000 32) (hr : ∀ i, 0 ≤ (a1 i).toInt ∧ (a1 i).toInt < 50000)
    (hs : S2x800000.Slices ![1, 0] S1x800000) (hc : S1x800000.ShapeCasts S800000) (i : S800000.Idx) :
    0 ≤ ((shapeCast S800000 (extractStridedSlice S1x800000 ![1, 0] a1 hs) hc) i).toInt
      ∧ ((shapeCast S800000 (extractStridedSlice S1x800000 ![1, 0] a1 hs) hc) i).toInt < 50000 := by
  obtain ⟨e, rfl⟩ : ∃ e : Fin 800000, i = ix1 e := ⟨i 0, eq_ix1 i⟩
  rw [row_read 1 1 rfl a1 hs hc e]
  exact hr _

end Cert.KernelIdeal.HostReads

end
-- ==== Proof.HostLeaves.lean ====
/-
  Single buffers read out of the fold of buffer contents through the host operations between the program's launch and its two
  regions.

  The host operations come in stretches; a stretch rewrites the buffers its operations write and leaves every other buffer as it
  was. So a buffer's contents at a boundary are found by walking back, stretch by stretch, to the last stretch that writes it, and
  from there to the buffers that operation reads.

  * The two rows of the edge list, flattened (`rowK`, `colK`), are clamped to `[0, 49999]` before they are used as node numbers.
    When every entry of the edge list is a node number the clamp is the identity, so the clamped buffers hold the rows themselves, at
    every boundary from the clamp on.
  * No host operation writes an argument array, so an argument's buffer holds the launch memory's array wherever no region's
    write-back touches it.
  * The small parameter arrays enter the regions reshaped to one-row matrices; those buffers hold the reshape of the launch array.
-/
import proofs.«416838_j24919400251997_4_alg».proof.Proof.Gen.KernelIdeal.Frame
import proofs.«416838_j24919400251997_4_alg».proof.Proof.IndexRange
import proofs.«416838_j24919400251997_4_alg».proof.Proof.HostReads
import Idealize.ShloMosaic.Lib.StableHlo.Run

set_option maxRecDepth 16384

noncomputable section

namespace Cert.KernelIdeal.HostLeaves

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- Row 0 of the edge list (the edges' first endpoints), flattened to a vector of 800000 words. -/
abbrev rowK (c : Dev nD) : IVec S800000 32 :=
  shapeCast S800000
    (extractStridedSlice S1x800000 ![0, 0] (m ((c : Thread nD τ).loc main_arg1) : IVec S2x800000 32) slices_S2x800000_S1x800000_0_0)
    shapeCasts_S1x800000_S800000
/-- Row 1 of the edge list (the edges' second endpoints), flattened. -/
abbrev colK (c : Dev nD) : IVec S800000 32 :=
  shapeCast S800000
    (extractStridedSlice S1x800000 ![1, 0] (m ((c : Thread nD τ).loc main_arg1) : IVec S2x800000 32) slices_S2x800000_S1x800000_1_0)
    shapeCasts_S1x800000_S800000

/-! ## What each stretch writes, and that it leaves the rest -/

/-- Every operation of a literal stretch writes one buffer, and that buffer is in the stretch's list. -/
local macro "writes_in_list " ops:ident : tactic =>
  `(tactic| (simp only [$ops:ident, List.Forall, StableHlo.nullary_writes, StableHlo.unary_writes, StableHlo.binary_writes,
               StableHlo.ternary_writes, StableHlo.reshape_writes, Finset.singleton_subset_iff, List.mem_toFinset]
             repeat' apply And.intro
             all_goals exact List.mem_map_of_mem (by decide)))

/-- The buffers the first stretch writes: row 0 cut out and flattened, and the clamp's two bounds. -/
abbrev wr0 : List (Ref sig .tc) := [main_v0, main_v1, main_c, main_c_0]
theorem writes0 : (hostOps0 : List (HloOp τ sig (Elt Ideal))).Forall fun op =>
    op.writes ⊆ (wr0.map (Proc.devRef (τ := τ) .tc)).toFinset := by
  writes_in_list hostOps0
theorem keep0 (X : Valuation τ sig (Elt Ideal)) {r : Ref sig .tc} (h : r ∉ wr0) :
    StableHlo.after hostOps0 X (Proc.devRef .tc r) = X (Proc.devRef .tc r) :=
  StableHlo.after_of_writes_sub hostOps0 X writes0 h

/-- The buffers the clamp of row 0 writes. -/
abbrev wr0_1 : List (Ref sig .tc) := [main_call0_v0, main_call0_v1, main_call0_v2, main_call0_v3, main_call0_v4, main_v2]
theorem writes0_1 : (hostOps0_1 : List (HloOp τ sig (Elt Ideal))).Forall fun op =>
    op.writes ⊆ (wr0_1.map (Proc.devRef (τ := τ) .tc)).toFinset := by
  writes_in_list hostOps0_1
theorem keep0_1 (X : Valuation τ sig (Elt Ideal)) {r : Ref sig .tc} (h : r ∉ wr0_1) :
    StableHlo.after hostOps0_1 X (Proc.devRef .tc r) = X (Proc.devRef .tc r) :=
  StableHlo.after_of_writes_sub hostOps0_1 X writes0_1 h

/-- The buffers the third stretch writes: row 1 cut out and flattened, and its clamp's two bounds. -/
abbrev wr0_2 : List (Ref sig .tc) := [main_v3, main_v4, main_c_1, main_c_2]
theorem writes0_2 : (hostOps0_2 : List (HloOp τ sig (Elt Ideal))).Forall fun op =>
    op.writes ⊆ (wr0_2.map (Proc.devRef (τ := τ) .tc)).toFinset := by
  writes_in_list hostOps0_2
theorem keep0_2 (X : Valuation τ sig (Elt Ideal)) {r : Ref sig .tc} (h : r ∉ wr0_2) :
    StableHlo.after hostOps0_2 X (Proc.devRef .tc r) = X (Proc.devRef .tc r) :=
  StableHlo.after_of_writes_sub hostOps0_2 X writes0_2 h

/-- The buffers the clamp of row 1 writes. -/
abbrev wr0_3 : List (Ref sig .tc) := [main_call1_v0, main_call1_v1, main_call1_v2, main_call1_v3, main_call1_v4, main_v5]
theorem writes0_3 : (hostOps0_3 : List (HloOp τ sig (Elt Ideal))).Forall fun op =>
    op.writes ⊆ (wr0_3.map (Proc.devRef (τ := τ) .tc)).toFinset := by
  writes_in_list hostOps0_3
theorem keep0_3 (X : Valuation τ sig (Elt Ideal)) {r : Ref sig .tc} (h : r ∉ wr0_3) :
    StableHlo.after hostOps0_3 X (Proc.devRef .tc r) = X (Proc.devRef .tc r) :=
  StableHlo.after_of_writes_sub hostOps0_3 X writes0_3 h

/-- The buffers the last stretch before region 0 writes: the gathered endpoint rows, their concatenation, the reshaped
    parameters. -/
abbrev wr0_4 : List (Ref sig .tc) :=
  [main_c_3, main_v6, main_v7, main_c_4, main_v8, main_v9, main_v10, main_v11, main_v12, main_c_5, main_v13, main_v14,
   main_c_6, main_v15, main_v16, main_v17, main_v18, main_v19, main_v20, main_v21, main_v22, main_v23]
theorem writes0_4 : (hostOps0_4 : List (HloOp τ sig (Elt Ideal))).Forall fun op =>
    op.writes ⊆ (wr0_4.map (Proc.devRef (τ := τ) .tc)).toFinset := by
  writes_in_list hostOps0_4
theorem keep0_4 (X : Valuation τ sig (Elt Ideal)) {r : Ref sig .tc} (h : r ∉ wr0_4) :
    StableHlo.after hostOps0_4 X (Proc.devRef .tc r) = X (Proc.devRef .tc r) :=
  StableHlo.after_of_writes_sub hostOps0_4 X writes0_4 h

/-- The buffers the first stretch after region 0 writes. -/
abbrev wr1 : List (Ref sig .tc) :=
  [main_v25, main_cst, main_v26, main_v27, main_v28, main_cst_7, main_v29, main_v30, main_cst_8, main_v31, main_v32, main_cst_9]
theorem writes1 : (hostOps1 : List (HloOp τ sig (Elt Ideal))).Forall fun op =>
    op.writes ⊆ (wr1.map (Proc.devRef (τ := τ) .tc)).toFinset := by
  writes_in_list hostOps1
theorem keep1 (X : Valuation τ sig (Elt Ideal)) {r : Ref sig .tc} (h : r ∉ wr1) :
    StableHlo.after hostOps1 X (Proc.devRef .tc r) = X (Proc.devRef .tc r) :=
  StableHlo.after_of_writes_sub hostOps1 X writes1 h

abbrev wr1_1 : List (Ref sig .tc) := [main_call2_v0, main_call2_v1, main_v33]
theorem writes1_1 : (hostOps1_1 : List (HloOp τ sig (Elt Ideal))).Forall fun op =>
    op.writes ⊆ (wr1_1.map (Proc.devRef (τ := τ) .tc)).toFinset := by
  writes_in_list hostOps1_1
theorem keep1_1 (X : Valuation τ sig (Elt Ideal)) {r : Ref sig .tc} (h : r ∉ wr1_1) :
    StableHlo.after hostOps1_1 X (Proc.devRef .tc r) = X (Proc.devRef .tc r) :=
  StableHlo.after_of_writes_sub hostOps1_1 X writes1_1 h

abbrev wr1_2 : List (Ref sig .tc) := [main_v34, main_cst_10]
theorem writes1_2 : (hostOps1_2 : List (HloOp τ sig (Elt Ideal))).Forall fun op =>
    op.writes ⊆ (wr1_2.map (Proc.devRef (τ := τ) .tc)).toFinset := by
  writes_in_list hostOps1_2
theorem keep1_2 (X : Valuation τ sig (Elt Ideal)) {r : Ref sig .tc} (h : r ∉ wr1_2) :
    StableHlo.after hostOps1_2 X (Proc.devRef .tc r) = X (Proc.devRef .tc r) :=
  StableHlo.after_of_writes_sub hostOps1_2 X writes1_2 h

abbrev wr1_3 : List (Ref sig .tc) := [main_call3_v0, main_call3_v1, main_v35]
theorem writes1_3 : (hostOps1_3 : List (HloOp τ sig (Elt Ideal))).Forall fun op =>
    op.writes ⊆ (wr1_3.map (Proc.devRef (τ := τ) .tc)).toFinset := by
  writes_in_list hostOps1_3
theorem keep1_3 (X : Valuation τ sig (Elt Ideal)) {r : Ref sig .tc} (h : r ∉ wr1_3) :
    StableHlo.after hostOps1_3 X (Proc.devRef .tc r) = X (Proc.devRef .tc r) :=
  StableHlo.after_of_writes_sub hostOps1_3 X writes1_3 h

/-- The buffers the last stretch before region 1 writes: the two propagation steps over the edges and the reshaped bias. -/
abbrev wr1_4 : List (Ref sig .tc) :=
  [main_c_11, main_v36, main_v37, main_c_12, main_v38, main_v39, main_v40, main_v41, main_v42, main_v43, main_v44, main_c_13,
   main_v45, main_v46, main_c_14, main_v47, main_v48, main_v49, main_v50, main_v51, main_v52, main_v53, main_c_15, main_v54,
   main_v55, main_c_16, main_v56, main_v57, main_v58, main_v59, main_v60, main_v61, main_v62, main_cst_17, main_v63, main_v64,
   main_v65, main_v66, main_c_18, main_v67, main_v68, main_c_19, main_v69, main_v70, main_v71, main_v72, main_v73, main_v74,
   main_v75, main_cst_20, main_v76, main_v77, main_v78, main_v79]
theorem writes1_4 : (hostOps1_4 : List (HloOp τ sig (Elt Ideal))).Forall fun op =>
    op.writes ⊆ (wr1_4.map (Proc.devRef (τ := τ) .tc)).toFinset := by
  writes_in_list hostOps1_4
theorem keep1_4 (X : Valuation τ sig (Elt Ideal)) {r : Ref sig .tc} (h : r ∉ wr1_4) :
    StableHlo.after hostOps1_4 X (Proc.devRef .tc r) = X (Proc.devRef .tc r) :=
  StableHlo.after_of_writes_sub hostOps1_4 X writes1_4 h

/-! ## Walking back over whole runs of stretches -/

/-- A buffer none of the first four stretches writes holds, before the last stretch ahead of region 0, the launch memory's array. -/
theorem W4_launch (c : Dev nD) {r : Ref sig .tc} (h0 : r ∉ wr0) (h1 : r ∉ wr0_1) (h2 : r ∉ wr0_2) (h3 : r ∉ wr0_3) :
    W4 m ρ c (Proc.devRef .tc r) = m ((c : Thread nD τ).loc r) :=
  (keep0_3 (W3 m ρ c) h3).trans ((keep0_2 (W2 m ρ c) h2).trans ((keep0_1 (W1 m ρ c) h1).trans (keep0 (W0 m ρ c) h0)))
/-- The same at region 0's entry, for a buffer the fifth stretch does not write either. -/
theorem W5_launch (c : Dev nD) {r : Ref sig .tc} (h0 : r ∉ wr0) (h1 : r ∉ wr0_1) (h2 : r ∉ wr0_2) (h3 : r ∉ wr0_3) (h4 : r ∉ wr0_4) :
    W5 m ρ c (Proc.devRef .tc r) = m ((c : Thread nD τ).loc r) :=
  (keep0_4 (W4 m ρ c) h4).trans (W4_launch m ρ c h0 h1 h2 h3)
/-- A buffer none of the four stretches after region 0 writes holds, before the last stretch ahead of region 1, what it held at
    region 0's exit. -/
theorem W10_exit (c : Dev nD) {r : Ref sig .tc} (h0 : r ∉ wr1) (h1 : r ∉ wr1_1) (h2 : r ∉ wr1_2) (h3 : r ∉ wr1_3) :
    W10 m ρ c (Proc.devRef .tc r) = W6 m ρ c (Proc.devRef .tc r) :=
  (keep1_3 (W9 m ρ c) h3).trans ((keep1_2 (W8 m ρ c) h2).trans ((keep1_1 (W7 m ρ c) h1).trans (keep1 (W6 m ρ c) h0)))
/-- The same at region 1's entry. -/
theorem W11_exit (c : Dev nD) {r : Ref sig .tc} (h0 : r ∉ wr1) (h1 : r ∉ wr1_1) (h2 : r ∉ wr1_2) (h3 : r ∉ wr1_3) (h4 : r ∉ wr1_4) :
    W11 m ρ c (Proc.devRef .tc r) = W6 m ρ c (Proc.devRef .tc r) :=
  (keep1_4 (W10 m ρ c) h4).trans (W10_exit m ρ c h0 h1 h2 h3)

/-! ## The arguments pass through -/

theorem W4_arg0 (c : Dev nD) : W4 m ρ c (Proc.devRef .tc main_arg0) = m ((c : Thread nD τ).loc main_arg0) :=
  W4_launch m ρ c (by decide) (by decide) (by decide) (by decide)
theorem W5_arg0 (c : Dev nD) : W5 m ρ c (Proc.devRef .tc main_arg0) = m ((c : Thread nD τ).loc main_arg0) :=
  W5_launch m ρ c (by decide) (by decide) (by decide) (by decide) (by decide)
theorem W5_arg2 (c : Dev nD) : W5 m ρ c (Proc.devRef .tc main_arg2) = m ((c : Thread nD τ).loc main_arg2) :=
  W5_launch m ρ c (by decide) (by decide) (by decide) (by decide) (by decide)
theorem V5_arg0 (c : Dev nD) : V5 m ρ c main_arg0 = m ((c : Thread nD τ).loc main_arg0) := W5_arg0 m ρ c
theorem V5_arg2 (c : Dev nD) : V5 m ρ c main_arg2 = m ((c : Thread nD τ).loc main_arg2) := W5_arg2 m ρ c
/-- The node features are no array of region 0, so its write-backs leave them. -/
theorem W6_arg0 (c : Dev nD) : W6 m ρ c (Proc.devRef .tc main_arg0) = m ((c : Thread nD τ).loc main_arg0) :=
  (W6_of_ne m ρ c main_arg0 (by decide)).trans (W5_arg0 m ρ c)
theorem W10_arg0 (c : Dev nD) : W10 m ρ c (Proc.devRef .tc main_arg0) = m ((c : Thread nD τ).loc main_arg0) :=
  (W10_exit m ρ c (by decide) (by decide) (by decide) (by decide)).trans (W6_arg0 m ρ c)
theorem W11_arg0 (c : Dev nD) : W11 m ρ c (Proc.devRef .tc main_arg0) = m ((c : Thread nD τ).loc main_arg0) :=
  (W11_exit m ρ c (by decide) (by decide) (by decide) (by decide) (by decide)).trans (W6_arg0 m ρ c)
theorem V11_arg0 (c : Dev nD) : V11 m ρ c main_arg0 = m ((c : Thread nD τ).loc main_arg0) := W11_arg0 m ρ c
/-- The Chebyshev weights: no host operation writes them and they are no array of region 0. -/
theorem V11_arg6 (c : Dev nD) : V11 m ρ c main_arg6 = m ((c : Thread nD τ).loc main_arg6) :=
  (W11_exit m ρ c (by decide) (by decide) (by decide) (by decide) (by decide)).trans
    ((W6_of_ne m ρ c main_arg6 (by decide)).trans (W5_launch m ρ c (by decide) (by decide) (by decide) (by decide) (by decide)))

/-! ## The host reshapes of the parameters -/

/-- The last stretch ahead of region 0 reshapes the first bias to one row. -/
theorem res_v21 (X : Valuation τ sig (Elt Ideal)) (a : FVec Ideal S128 .f32) (h : X (Proc.devRef .tc main_arg3) = a) :
    (StableHlo.after hostOps0_4 X (Proc.devRef .tc main_v21) : FVec Ideal S1x128 .f32) = shapeCast S1x128 a shapeCasts_S128_S1x128 := by
  subst h
  dsimp only [hostOps0_4]
  after_results
  rfl
/-- … the read-out weights, a column, to one row. -/
theorem res_v22 (X : Valuation τ sig (Elt Ideal)) (a : FVec Ideal S128x1 .f32) (h : X (Proc.devRef .tc main_arg4) = a) :
    (StableHlo.after hostOps0_4 X (Proc.devRef .tc main_v22) : FVec Ideal S1x128 .f32) = shapeCast S1x128 a shapeCasts_S128x1_S1x128 := by
  subst h
  dsimp only [hostOps0_4]
  after_results
  rfl
/-- … and the read-out bias to a one-by-one matrix. -/
theorem res_v23 (X : Valuation τ sig (Elt Ideal)) (a : FVec Ideal S1 .f32) (h : X (Proc.devRef .tc main_arg5) = a) :
    (StableHlo.after hostOps0_4 X (Proc.devRef .tc main_v23) : FVec Ideal S1x1 .f32) = shapeCast S1x1 a shapeCasts_S1_S1x1 := by
  subst h
  dsimp only [hostOps0_4]
  after_results
  rfl
/-- The last stretch ahead of region 1 reshapes the layer's bias to one row. -/
theorem res_v79 (X : Valuation τ sig (Elt Ideal)) (a : FVec Ideal S128 .f32) (h : X (Proc.devRef .tc main_arg7) = a) :
    (StableHlo.after hostOps1_4 X (Proc.devRef .tc main_v79) : FVec Ideal S1x128 .f32) = shapeCast S1x128 a shapeCasts_S128_S1x128 := by
  subst h
  dsimp only [hostOps1_4]
  after_results
  rfl

theorem V5_v21 (c : Dev nD) :
    (V5 m ρ c main_v21 : FVec Ideal S1x128 .f32) = shapeCast S1x128 (m ((c : Thread nD τ).loc main_arg3) : FVec Ideal S128 .f32) shapeCasts_S128_S1x128 :=
  res_v21 (W4 m ρ c) _ (W4_launch m ρ c (by decide) (by decide) (by decide) (by decide))
theorem V5_v22 (c : Dev nD) :
    (V5 m ρ c main_v22 : FVec Ideal S1x128 .f32) = shapeCast S1x128 (m ((c : Thread nD τ).loc main_arg4) : FVec Ideal S128x1 .f32) shapeCasts_S128x1_S1x128 :=
  res_v22 (W4 m ρ c) _ (W4_launch m ρ c (by decide) (by decide) (by decide) (by decide))
theorem V5_v23 (c : Dev nD) :
    (V5 m ρ c main_v23 : FVec Ideal S1x1 .f32) = shapeCast S1x1 (m ((c : Thread nD τ).loc main_arg5) : FVec Ideal S1 .f32) shapeCasts_S1_S1x1 :=
  res_v23 (W4 m ρ c) _ (W4_launch m ρ c (by decide) (by decide) (by decide) (by decide))
theorem V11_v79 (c : Dev nD) :
    (V11 m ρ c main_v79 : FVec Ideal S1x128 .f32) = shapeCast S1x128 (m ((c : Thread nD τ).loc main_arg7) : FVec Ideal S128 .f32) shapeCasts_S128_S1x128 :=
  res_v79 (W10 m ρ c) _ ((W10_exit m ρ c (by decide) (by decide) (by decide) (by decide)).trans
    ((W6_of_ne m ρ c main_arg7 (by decide)).trans (W5_launch m ρ c (by decide) (by decide) (by decide) (by decide) (by decide))))

/-! ## The clamped node numbers are the node numbers -/

/-- The first stretch cuts row 0 out of the edge list and flattens it … -/
theorem res_v1 (X : Valuation τ sig (Elt Ideal)) (a : IVec S2x800000 32) (h : X (Proc.devRef .tc main_arg1) = a) :
    (StableHlo.after hostOps0 X (Proc.devRef .tc main_v1) : IVec S800000 32)
      = shapeCast S800000 (extractStridedSlice S1x800000 ![0, 0] a slices_S2x800000_S1x800000_0_0) shapeCasts_S1x800000_S800000 := by
  subst h
  dsimp only [hostOps0]
  after_results
  rfl
/-- … and sets the clamp's bounds, 0 … -/
theorem res_c (X : Valuation τ sig (Elt Ideal)) :
    (StableHlo.after hostOps0 X (Proc.devRef .tc main_c) : IVec S_ 32) = constantI S_ 32 0#32 := by
  dsimp only [hostOps0]
  after_results
/-- … and 49999. -/
theorem res_c_0 (X : Valuation τ sig (Elt Ideal)) :
    (StableHlo.after hostOps0 X (Proc.devRef .tc main_c_0) : IVec S_ 32) = constantI S_ 32 49999#32 := by
  dsimp only [hostOps0]
  after_results
/-- The third stretch does the same for row 1. -/
theorem res_v4 (X : Valuation τ sig (Elt Ideal)) (a : IVec S2x800000 32) (h : X (Proc.devRef .tc main_arg1) = a) :
    (StableHlo.after hostOps0_2 X (Proc.devRef .tc main_v4) : IVec S800000 32)
      = shapeCast S800000 (extractStridedSlice S1x800000 ![1, 0] a slices_S2x800000_S1x800000_1_0) shapeCasts_S1x800000_S800000 := by
  subst h
  dsimp only [hostOps0_2]
  after_results
  rfl
theorem res_c_1 (X : Valuation τ sig (Elt Ideal)) :
    (StableHlo.after hostOps0_2 X (Proc.devRef .tc main_c_1) : IVec S_ 32) = constantI S_ 32 0#32 := by
  dsimp only [hostOps0_2]
  after_results
theorem res_c_2 (X : Valuation τ sig (Elt Ideal)) :
    (StableHlo.after hostOps0_2 X (Proc.devRef .tc main_c_2) : IVec S_ 32) = constantI S_ 32 49999#32 := by
  dsimp only [hostOps0_2]
  after_results

/-- The clamp of row 0: the minimum with 49999 of the maximum with 0, both bounds broadcast. On node numbers it is the identity. -/
theorem clip_v2 (X : Valuation τ sig (Elt Ideal)) (r : IVec S800000 32) (hc : X (Proc.devRef .tc main_c) = constantI S_ 32 0#32)
    (hc0 : X (Proc.devRef .tc main_c_0) = constantI S_ 32 49999#32) (hv : X (Proc.devRef .tc main_v1) = r)
    (hr : ∀ i, 0 ≤ (r i).toInt ∧ (r i).toInt < 50000) :
    (StableHlo.after hostOps0_1 X (Proc.devRef .tc main_v2) : IVec S800000 32) = r := by
  have e : (StableHlo.after hostOps0_1 X (Proc.devRef .tc main_v2) : IVec S800000 32)
      = minsi (broadcastInDim S800000 ![] bcast_S_S800000 (X (Proc.devRef .tc main_c_0) : IVec S_ 32))
          (maxsi (broadcastInDim S800000 ![] bcast_S_S800000 (X (Proc.devRef .tc main_c) : IVec S_ 32)) (X (Proc.devRef .tc main_v1))) := by
    dsimp only [hostOps0_1]
    after_results
    rfl
  rw [e, hc, hc0, hv]
  exact Cert.IndexRange.clip_eq _ _ r (fun _ => rfl) (fun _ => rfl) hr
/-- The clamp of row 1. -/
theorem clip_v5 (X : Valuation τ sig (Elt Ideal)) (r : IVec S800000 32) (hc : X (Proc.devRef .tc main_c_1) = constantI S_ 32 0#32)
    (hc0 : X (Proc.devRef .tc main_c_2) = constantI S_ 32 49999#32) (hv : X (Proc.devRef .tc main_v4) = r)
    (hr : ∀ i, 0 ≤ (r i).toInt ∧ (r i).toInt < 50000) :
    (StableHlo.after hostOps0_3 X (Proc.devRef .tc main_v5) : IVec S800000 32) = r := by
  have e : (StableHlo.after hostOps0_3 X (Proc.devRef .tc main_v5) : IVec S800000 32)
      = minsi (broadcastInDim S800000 ![] bcast_S_S800000 (X (Proc.devRef .tc main_c_2) : IVec S_ 32))
          (maxsi (broadcastInDim S800000 ![] bcast_S_S800000 (X (Proc.devRef .tc main_c_1) : IVec S_ 32)) (X (Proc.devRef .tc main_v4))) := by
    dsimp only [hostOps0_3]
    after_results
    rfl
  rw [e, hc, hc0, hv]
  exact Cert.IndexRange.clip_eq _ _ r (fun _ => rfl) (fun _ => rfl) hr

section Clamped
variable (c : Dev nD)
  (hr : ∀ i, 0 ≤ ((m ((c : Thread nD τ).loc main_arg1) : IVec S2x800000 32) i).toInt
    ∧ ((m ((c : Thread nD τ).loc main_arg1) : IVec S2x800000 32) i).toInt < 50000)
include hr

/-- After the clamp of row 0 its buffer holds row 0. -/
theorem W2_v2 : (W2 m ρ c (Proc.devRef .tc main_v2) : IVec S800000 32) = rowK m c :=
  clip_v2 (W1 m ρ c) (rowK m c) (res_c (W0 m ρ c)) (res_c_0 (W0 m ρ c)) (res_v1 (W0 m ρ c) _ rfl)
    (Cert.KernelIdeal.HostReads.row_range _ hr _ _)
/-- After the clamp of row 1 its buffer holds row 1 (the edge list's buffer is as launched: no stretch writes it). -/
theorem W4_v5 : (W4 m ρ c (Proc.devRef .tc main_v5) : IVec S800000 32) = colK m c :=
  clip_v5 (W3 m ρ c) (colK m c) (res_c_1 (W2 m ρ c)) (res_c_2 (W2 m ρ c))
    (res_v4 (W2 m ρ c) _ ((keep0_1 (W1 m ρ c) (by decide)).trans (keep0 (W0 m ρ c) (by decide))))
    (Cert.KernelIdeal.HostReads.col_range _ hr _ _)
theorem W4_v2 : (W4 m ρ c (Proc.devRef .tc main_v2) : IVec S800000 32) = rowK m c :=
  (keep0_3 (W3 m ρ c) (by decide)).trans ((keep0_2 (W2 m ρ c) (by decide)).trans (W2_v2 m ρ c hr))
/-- At region 0's entry. -/
theorem W5_v2 : (W5 m ρ c (Proc.devRef .tc main_v2) : IVec S800000 32) = rowK m c :=
  (keep0_4 (W4 m ρ c) (by decide)).trans (W4_v2 m ρ c hr)
theorem W5_v5 : (W5 m ρ c (Proc.devRef .tc main_v5) : IVec S800000 32) = colK m c :=
  (keep0_4 (W4 m ρ c) (by decide)).trans (W4_v5 m ρ c hr)
/-- At region 0's exit: neither is an array of the region. -/
theorem W6_v2 : (W6 m ρ c (Proc.devRef .tc main_v2) : IVec S800000 32) = rowK m c :=
  (W6_of_ne m ρ c main_v2 (by decide)).trans (W5_v2 m ρ c hr)
theorem W6_v5 : (W6 m ρ c (Proc.devRef .tc main_v5) : IVec S800000 32) = colK m c :=
  (W6_of_ne m ρ c main_v5 (by decide)).trans (W5_v5 m ρ c hr)
/-- Before the last stretch ahead of region 1. -/
theorem W10_v2 : (W10 m ρ c (Proc.devRef .tc main_v2) : IVec S800000 32) = rowK m c :=
  (W10_exit m ρ c (by decide) (by decide) (by decide) (by decide)).trans (W6_v2 m ρ c hr)
theorem W10_v5 : (W10 m ρ c (Proc.devRef .tc main_v5) : IVec S800000 32) = colK m c :=
  (W10_exit m ρ c (by decide) (by decide) (by decide) (by decide)).trans (W6_v5 m ρ c hr)
/-- At region 1's entry. -/
theorem W11_v2 : (W11 m ρ c (Proc.devRef .tc main_v2) : IVec S800000 32) = rowK m c :=
  (W11_exit m ρ c (by decide) (by decide) (by decide) (by decide) (by decide)).trans (W6_v2 m ρ c hr)
theorem W11_v5 : (W11 m ρ c (Proc.devRef .tc main_v5) : IVec S800000 32) = colK m c :=
  (W11_exit m ρ c (by decide) (by decide) (by decide) (by decide) (by decide)).trans (W6_v5 m ρ c hr)

end Clamped

end Cert.KernelIdeal.HostLeaves

end
-- ==== Proof.BridgeEdge.lean ====
/-
  The first kernel region meets the reference: the features the host hands the region are the reference's gathered
  and concatenated rows (the clamped node numbers being the node numbers), its weight operands are the reference's
  arguments reshaped, and so the region's output row, read as a flat vector, is the reference's edge weights.
-/
import proofs.«416838_j24919400251997_4_alg».proof.Proof.BridgeDefs
import proofs.«416838_j24919400251997_4_alg».proof.Proof.EdgeKernel
import proofs.«416838_j24919400251997_4_alg».proof.Proof.RefValues
import proofs.«416838_j24919400251997_4_alg».proof.Proof.HostLeaves
import proofs.«416838_j24919400251997_4_alg».proof.Proof.HostReads
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The edge weight depends on its two rows and its read-out bias only through their entries. -/
theorem edgeWeight_congr {feat : Fin 800000 → Fin 256 → EReal} {w1 : Fin 256 → Fin 128 → EReal} {b1 b1' w2 w2' : Fin 128 → EReal}
    {b2 b2' : EReal} (hb1 : ∀ j, b1 j = b1' j) (hw2 : ∀ j, w2 j = w2' j) (hb2 : b2 = b2') (e : Fin 800000) :
    Cert.Spec.edgeWeight feat w1 b1 w2 b2 e = Cert.Spec.edgeWeight feat w1 b1' w2' b2' e := by
  rw [show b1 = b1' from funext hb1, show w2 = w2' from funext hw2, hb2]

set_option maxHeartbeats 4000000 in
/-- The features the first region is entered with are the reference's concatenated gathered rows. -/
theorem feat_eq (c : Dev nD) (hr : InRange m c) :
    (V5 m ρ c main_v20 : S800000x256.Idx → EReal)
      = Cert.ReferenceIdeal.Read.val_main_v18 (F := Ideal) (A0 m c) (A1 m c) := by
  have hrow := Cert.KernelIdeal.HostLeaves.W4_v2 m ρ c hr
  have hcol := Cert.KernelIdeal.HostLeaves.W4_v5 m ρ c hr
  have hx := Cert.KernelIdeal.HostLeaves.W4_arg0 m ρ c
  show StableHlo.after hostOps0_4 (W4 m ρ c) (Proc.devRef .tc main_v20) = _
  generalize W4 m ρ c = X at hrow hcol hx ⊢
  dsimp only [hostOps0_4]
  after_results
  rw [hrow, hcol, hx]
  rfl

/-- The first region's output row, read as a flat vector, is the reference's edge weights. -/
theorem edge_agree (c : Dev nD) (hr : InRange m c) : EdgeAgree m ρ c := by
  funext i
  obtain ⟨e, rfl⟩ : ∃ e : Fin 800000, i = ix1 e := ⟨i 0, eq_ix1 i⟩
  rw [Cert.KernelIdeal.HostReads.cast_row, Cert.ReferenceIdeal.RefValue.ref_edge]
  have hout : (W6 m ρ c (Proc.devRef .tc main_v24) : S1x800000.Idx → EReal) = (dat0 (F := Ideal) (V5 m ρ) c).arrAt 5 cfg0.N :=
    W6_arr m ρ c 5
  rw [hout, Cert.KernelIdeal.EdgeValue.edge_final (V5 m ρ) c e, feat_eq m ρ c hr, Cert.KernelIdeal.HostLeaves.V5_arg2 m ρ c,
    Cert.KernelIdeal.HostLeaves.V5_v21 m ρ c, Cert.KernelIdeal.HostLeaves.V5_v22 m ρ c, Cert.KernelIdeal.HostLeaves.V5_v23 m ρ c]
  exact edgeWeight_congr (fun j => Cert.KernelIdeal.HostReads.cast_b1 _ _ j) (fun j => Cert.KernelIdeal.HostReads.cast_w2 _ _ j)
    (Cert.KernelIdeal.HostReads.cast_b2 _ _) e

end Cert.Bridge

end
-- ==== Proof.BridgeMid.lean ====
/-
  Between the two kernel regions the program does on the host exactly what the reference does: the weighted degree of
  every node (a scatter-add of the edge weights at the source nodes), its inverse square root where positive and zero
  elsewhere, the normalised edge weight `-dinv[row] · w · dinv[col]`, and two propagation steps, each a scatter-add
  at the target nodes of the normalised weight times the gathered source rows. Given that the edge weights agree
  and that the clamped node numbers are the node numbers, the two propagated arrays are the reference's.
-/
import proofs.«416838_j24919400251997_4_alg».proof.Proof.Gen.KernelIdeal.Frame
import proofs.«416838_j24919400251997_4_alg».proof.Proof.Gen.ReferenceIdeal.Read
import proofs.«416838_j24919400251997_4_alg».proof.Proof.HostLeaves
import proofs.«416838_j24919400251997_4_alg».proof.Proof.BridgeDefs
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-! ## The host operations between the two regions, from any buffer contents

Each lemma of this section runs one stretch of the operations from arbitrary contents of the buffers it reads, given
that those buffers hold the reference's stages; the stretch's result is then the reference's next stage. -/

section Stretches

open Cert.ReferenceIdeal.Read

variable (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x1, .f32⟩ : BufTy).Contents (Elt Ideal))
    (x5 : (⟨Cert.ReferenceIdeal.S1, .f32⟩ : BufTy).Contents (Elt Ideal))

/-- The first region's output read as a flat vector is what the reshape writes. -/
theorem flat_of (X : Valuation τ sig (Elt Ideal))
    (hE : shapeCast S800000 (X (Proc.devRef .tc main_v24) : S1x800000.Idx → EReal) shapeCasts_S1x800000_S800000
      = val_main_v34 (F := Ideal) x0 x1 x2 x3 x4 x5) :
    (StableHlo.after [StableHlo.reshape (τ := τ) (Val := Elt Ideal) main_v24 main_v25 rfl shapeCasts_S1x800000_S800000] X
      (Proc.devRef .tc main_v25) : S800000.Idx → EReal) = val_main_v34 (F := Ideal) x0 x1 x2 x3 x4 x5 := by
  refine Eq.trans ?_ hE
  after_results_simp
  rfl

set_option maxHeartbeats 4000000 in
/-- The flat edge-weight vector after the first stretch. -/
theorem ew1_of (X : Valuation τ sig (Elt Ideal))
    (hE : shapeCast S800000 (X (Proc.devRef .tc main_v24) : S1x800000.Idx → EReal) shapeCasts_S1x800000_S800000
      = val_main_v34 (F := Ideal) x0 x1 x2 x3 x4 x5) :
    (StableHlo.after (hostOps1 (F := Ideal)) X (Proc.devRef .tc main_v25) : S800000.Idx → EReal)
      = val_main_v34 (F := Ideal) x0 x1 x2 x3 x4 x5 := by
  refine Eq.trans ?_ hE
  dsimp only [hostOps1]
  after_results_simp
  rfl

set_option maxHeartbeats 4000000 in
/-- The weighted degree: the scatter-add of the edge weights at the source nodes. -/
theorem deg_of (X : Valuation τ sig (Elt Ideal))
    (h2 : (X (Proc.devRef .tc main_v2) : (⟨S800000, .i32⟩ : BufTy).Contents (Elt Ideal)) = val_main_v1 (F := Ideal) x1)
    (hE : shapeCast S800000 (X (Proc.devRef .tc main_v24) : S1x800000.Idx → EReal) shapeCasts_S1x800000_S800000
      = val_main_v34 (F := Ideal) x0 x1 x2 x3 x4 x5) :
    (StableHlo.after (hostOps1 (F := Ideal)) X (Proc.devRef .tc main_v28) : (⟨S50000, .f32⟩ : BufTy).Contents (Elt Ideal))
      = val_main_v37 (F := Ideal) x0 x1 x2 x3 x4 x5 := by
  have hE' := flat_of x0 x1 x2 x3 x4 x5 X hE
  simp (disch := decide) only [after_cons, after_nil, reshape_result'] at hE'
  dsimp only [hostOps1]
  after_results_simp
  rw [h2]
  simp only [hE']
  rfl

set_option maxHeartbeats 4000000 in
/-- Where the degree is positive (the test the outer selection uses). -/
theorem pos_of (X : Valuation τ sig (Elt Ideal))
    (h2 : (X (Proc.devRef .tc main_v2) : (⟨S800000, .i32⟩ : BufTy).Contents (Elt Ideal)) = val_main_v1 (F := Ideal) x1)
    (hE : shapeCast S800000 (X (Proc.devRef .tc main_v24) : S1x800000.Idx → EReal) shapeCasts_S1x800000_S800000
      = val_main_v34 (F := Ideal) x0 x1 x2 x3 x4 x5) :
    (StableHlo.after (hostOps1 (F := Ideal)) X (Proc.devRef .tc main_v30) : (⟨S50000, .i1⟩ : BufTy).Contents (Elt Ideal))
      = val_main_v39 (F := Ideal) x0 x1 x2 x3 x4 x5 := by
  have hE' := flat_of x0 x1 x2 x3 x4 x5 X hE
  simp (disch := decide) only [after_cons, after_nil, reshape_result'] at hE'
  dsimp only [hostOps1]
  after_results_simp
  rw [h2]
  simp only [hE']
  rfl

set_option maxHeartbeats 4000000 in
/-- Where the degree is positive (the test the inner selection uses). -/
theorem pos'_of (X : Valuation τ sig (Elt Ideal))
    (h2 : (X (Proc.devRef .tc main_v2) : (⟨S800000, .i32⟩ : BufTy).Contents (Elt Ideal)) = val_main_v1 (F := Ideal) x1)
    (hE : shapeCast S800000 (X (Proc.devRef .tc main_v24) : S1x800000.Idx → EReal) shapeCasts_S1x800000_S800000
      = val_main_v34 (F := Ideal) x0 x1 x2 x3 x4 x5) :
    (StableHlo.after (hostOps1 (F := Ideal)) X (Proc.devRef .tc main_v32) : (⟨S50000, .i1⟩ : BufTy).Contents (Elt Ideal))
      = val_main_v41 (F := Ideal) x0 x1 x2 x3 x4 x5 := by
  have hE' := flat_of x0 x1 x2 x3 x4 x5 X hE
  simp (disch := decide) only [after_cons, after_nil, reshape_result'] at hE'
  dsimp only [hostOps1]
  after_results_simp
  rw [h2]
  simp only [hE']
  rfl

set_option maxHeartbeats 4000000 in
/-- The constant one the inner selection falls back to. -/
theorem one_of (X : Valuation τ sig (Elt Ideal)) :
    (StableHlo.after (hostOps1 (F := Ideal)) X (Proc.devRef .tc main_cst_9) : (⟨S_, .f32⟩ : BufTy).Contents (Elt Ideal))
      = val_main_cst_7 (F := Ideal) := by
  dsimp only [hostOps1]
  after_results_simp
  rfl

set_option maxHeartbeats 4000000 in
/-- The degree where positive, one elsewhere. -/
theorem safe_of (Y : Valuation τ sig (Elt Ideal))
    (h9 : (Y (Proc.devRef .tc main_cst_9) : (⟨S_, .f32⟩ : BufTy).Contents (Elt Ideal)) = val_main_cst_7 (F := Ideal))
    (h32 : (Y (Proc.devRef .tc main_v32) : (⟨S50000, .i1⟩ : BufTy).Contents (Elt Ideal)) = val_main_v41 (F := Ideal) x0 x1 x2 x3 x4 x5)
    (h28 : (Y (Proc.devRef .tc main_v28) : (⟨S50000, .f32⟩ : BufTy).Contents (Elt Ideal)) = val_main_v37 (F := Ideal) x0 x1 x2 x3 x4 x5) :
    (StableHlo.after (hostOps1_1 (F := Ideal)) Y (Proc.devRef .tc main_v33) : S50000.Idx → EReal)
      = val_main_v42 (F := Ideal) x0 x1 x2 x3 x4 x5 := by
  dsimp only [hostOps1_1]
  after_results_simp
  simp only [TRef.toBuf, TRef.ofBuf, cast_eq, id]
  rw [h9, h32, h28]
  rfl

set_option maxHeartbeats 4000000 in
/-- Its inverse square root, and the constant zero the outer selection falls back to. -/
theorem rsqrt_of (Y : Valuation τ sig (Elt Ideal))
    (h33 : (Y (Proc.devRef .tc main_v33) : S50000.Idx → EReal) = val_main_v42 (F := Ideal) x0 x1 x2 x3 x4 x5) :
    (StableHlo.after (hostOps1_2 (F := Ideal)) Y (Proc.devRef .tc main_v34) : S50000.Idx → EReal)
      = val_main_v43 (F := Ideal) x0 x1 x2 x3 x4 x5 := by
  dsimp only [hostOps1_2]
  after_results_simp
  rw [h33]
  rfl
theorem zero_of (Y : Valuation τ sig (Elt Ideal)) :
    (StableHlo.after (hostOps1_2 (F := Ideal)) Y (Proc.devRef .tc main_cst_10) : (⟨S_, .f32⟩ : BufTy).Contents (Elt Ideal))
      = val_main_cst_8 (F := Ideal) := by
  dsimp only [hostOps1_2]
  after_results_simp
  rfl

set_option maxHeartbeats 4000000 in
/-- The inverse square root of the degree where it is positive, zero elsewhere. -/
theorem dinv_of (Y : Valuation τ sig (Elt Ideal))
    (h10 : (Y (Proc.devRef .tc main_cst_10) : (⟨S_, .f32⟩ : BufTy).Contents (Elt Ideal)) = val_main_cst_8 (F := Ideal))
    (h30 : (Y (Proc.devRef .tc main_v30) : (⟨S50000, .i1⟩ : BufTy).Contents (Elt Ideal)) = val_main_v39 (F := Ideal) x0 x1 x2 x3 x4 x5)
    (h34 : (Y (Proc.devRef .tc main_v34) : S50000.Idx → EReal) = val_main_v43 (F := Ideal) x0 x1 x2 x3 x4 x5) :
    (StableHlo.after (hostOps1_3 (F := Ideal)) Y (Proc.devRef .tc main_v35) : S50000.Idx → EReal)
      = val_main_v44 (F := Ideal) x0 x1 x2 x3 x4 x5 := by
  dsimp only [hostOps1_3]
  after_results_simp
  simp only [TRef.toBuf, TRef.ofBuf, cast_eq, id]
  rw [h10, h30, h34]
  rfl

set_option maxHeartbeats 4000000 in
/-- From contents holding the reference's two node vectors, its inverse square roots of the degrees, its edge
    weights and `x`: the first propagated array. -/
theorem tx1_of (Y : Valuation τ sig (Elt Ideal))
    (h2 : (Y (Proc.devRef .tc main_v2) : (⟨S800000, .i32⟩ : BufTy).Contents (Elt Ideal)) = val_main_v1 (F := Ideal) x1)
    (h5 : (Y (Proc.devRef .tc main_v5) : (⟨S800000, .i32⟩ : BufTy).Contents (Elt Ideal)) = val_main_v3 (F := Ideal) x1)
    (h35 : (Y (Proc.devRef .tc main_v35) : S50000.Idx → EReal) = val_main_v44 (F := Ideal) x0 x1 x2 x3 x4 x5)
    (h25 : (Y (Proc.devRef .tc main_v25) : S800000.Idx → EReal) = val_main_v34 (F := Ideal) x0 x1 x2 x3 x4 x5)
    (h0 : (Y (Proc.devRef .tc main_arg0) : S50000x128.Idx → EReal) = x0) :
    (StableHlo.after (hostOps1_4 (F := Ideal)) Y (Proc.devRef .tc main_v65) : S50000x128.Idx → EReal)
      = val_main_v74 (F := Ideal) x0 x1 x2 x3 x4 x5 := by
  dsimp only [hostOps1_4]
  after_results_simp
  rw [h2, h5, h35, h25, h0]
  rfl

set_option maxHeartbeats 4000000 in
/-- The same contents give the second propagated array. -/
theorem s_of (Y : Valuation τ sig (Elt Ideal))
    (h2 : (Y (Proc.devRef .tc main_v2) : (⟨S800000, .i32⟩ : BufTy).Contents (Elt Ideal)) = val_main_v1 (F := Ideal) x1)
    (h5 : (Y (Proc.devRef .tc main_v5) : (⟨S800000, .i32⟩ : BufTy).Contents (Elt Ideal)) = val_main_v3 (F := Ideal) x1)
    (h35 : (Y (Proc.devRef .tc main_v35) : S50000.Idx → EReal) = val_main_v44 (F := Ideal) x0 x1 x2 x3 x4 x5)
    (h25 : (Y (Proc.devRef .tc main_v25) : S800000.Idx → EReal) = val_main_v34 (F := Ideal) x0 x1 x2 x3 x4 x5)
    (h0 : (Y (Proc.devRef .tc main_arg0) : S50000x128.Idx → EReal) = x0) :
    (StableHlo.after (hostOps1_4 (F := Ideal)) Y (Proc.devRef .tc main_v78) : S50000x128.Idx → EReal)
      = val_main_v87 (F := Ideal) x0 x1 x2 x3 x4 x5 := by
  dsimp only [hostOps1_4]
  after_results_simp
  rw [h2, h5, h35, h25, h0]
  rfl

end Stretches

/-! ## The buffers at the second region's entry -/

section Entry

open Cert.ReferenceIdeal.Read Cert.KernelIdeal.HostLeaves

variable (m : (ℓ : Loc nD τ sig) → Buf (Elt Ideal) ℓ) (ρ : Dev nD → PrngReg)

/-- The source-node vector at the first region's exit is the reference's first slice of the edge list. -/
theorem row6 (c : Dev nD) (hr : InRange m c) :
    (W6 m ρ c (Proc.devRef .tc main_v2) : (⟨S800000, .i32⟩ : BufTy).Contents (Elt Ideal)) = val_main_v1 (F := Ideal) (A1 m c) :=
  W6_v2 m ρ c hr

/-- The inverse square roots of the degrees before the last stretch are the reference's. -/
theorem dinv10 (c : Dev nD) (hr : InRange m c) (hE : EdgeAgree m ρ c) :
    (W10 m ρ c (Proc.devRef .tc main_v35) : S50000.Idx → EReal)
      = val_main_v44 (F := Ideal) (A0 m c) (A1 m c) (A2 m c) (A3 m c) (A4 m c) (A5 m c) := by
  have h2 := row6 m ρ c hr
  have h28 := deg_of (A0 m c) (A1 m c) (A2 m c) (A3 m c) (A4 m c) (A5 m c) (W6 m ρ c) h2 hE
  have h30 := pos_of (A0 m c) (A1 m c) (A2 m c) (A3 m c) (A4 m c) (A5 m c) (W6 m ρ c) h2 hE
  have h32 := pos'_of (A0 m c) (A1 m c) (A2 m c) (A3 m c) (A4 m c) (A5 m c) (W6 m ρ c) h2 hE
  have h33 := safe_of (A0 m c) (A1 m c) (A2 m c) (A3 m c) (A4 m c) (A5 m c) (W7 m ρ c) (one_of (W6 m ρ c)) h32 h28
  have h34 := rsqrt_of (A0 m c) (A1 m c) (A2 m c) (A3 m c) (A4 m c) (A5 m c) (W8 m ρ c) h33
  have h30' : (W9 m ρ c (Proc.devRef .tc main_v30) : (⟨S50000, .i1⟩ : BufTy).Contents (Elt Ideal))
      = val_main_v39 (F := Ideal) (A0 m c) (A1 m c) (A2 m c) (A3 m c) (A4 m c) (A5 m c) :=
    (keep1_2 (W8 m ρ c) (by decide)).trans ((keep1_1 (W7 m ρ c) (by decide)).trans h30)
  exact dinv_of (A0 m c) (A1 m c) (A2 m c) (A3 m c) (A4 m c) (A5 m c) (W9 m ρ c) (zero_of (W8 m ρ c)) h30' h34

/-- The flat edge-weight vector before the last stretch is the reference's. -/
theorem ew10 (c : Dev nD) (hE : EdgeAgree m ρ c) :
    (W10 m ρ c (Proc.devRef .tc main_v25) : S800000.Idx → EReal)
      = val_main_v34 (F := Ideal) (A0 m c) (A1 m c) (A2 m c) (A3 m c) (A4 m c) (A5 m c) :=
  (keep1_3 (W9 m ρ c) (by decide)).trans ((keep1_2 (W8 m ρ c) (by decide)).trans ((keep1_1 (W7 m ρ c) (by decide)).trans
    (ew1_of (A0 m c) (A1 m c) (A2 m c) (A3 m c) (A4 m c) (A5 m c) (W6 m ρ c) hE)))

end Entry

variable (m : (ℓ : Loc nD τ sig) → Buf (Elt Ideal) ℓ) (ρ : Dev nD → PrngReg)

open Cert.KernelIdeal.HostLeaves in
/-- The edge weights as the program returns them (the flat vector, at the second region's entry). -/
theorem ew_out (c : Dev nD) (hr : InRange m c) (hE : EdgeAgree m ρ c) :
    (W11 m ρ c (Proc.devRef .tc main_v25) : S800000.Idx → EReal)
      = Cert.ReferenceIdeal.Read.val_main_v34 (F := Ideal) (A0 m c) (A1 m c) (A2 m c) (A3 m c) (A4 m c) (A5 m c) :=
  (keep1_4 (W10 m ρ c) (by decide)).trans (ew10 m ρ c hE)

open Cert.KernelIdeal.HostLeaves in
/-- The first propagated array `tx1` at the second region's entry is the reference's. -/
theorem tx1_eq (c : Dev nD) (hr : InRange m c) (hE : EdgeAgree m ρ c) :
    (V11 m ρ c main_v65 : S50000x128.Idx → EReal)
      = Cert.ReferenceIdeal.Read.val_main_v74 (F := Ideal) (A0 m c) (A1 m c) (A2 m c) (A3 m c) (A4 m c) (A5 m c) :=
  tx1_of (A0 m c) (A1 m c) (A2 m c) (A3 m c) (A4 m c) (A5 m c) (W10 m ρ c) (W10_v2 m ρ c hr) (W10_v5 m ρ c hr)
    (dinv10 m ρ c hr hE) (ew10 m ρ c hE) (W10_arg0 m ρ c)

open Cert.KernelIdeal.HostLeaves in
/-- The second propagated array `s` at the second region's entry is the reference's. -/
theorem s_eq (c : Dev nD) (hr : InRange m c) (hE : EdgeAgree m ρ c) :
    (V11 m ρ c main_v78 : S50000x128.Idx → EReal)
      = Cert.ReferenceIdeal.Read.val_main_v87 (F := Ideal) (A0 m c) (A1 m c) (A2 m c) (A3 m c) (A4 m c) (A5 m c) :=
  s_of (A0 m c) (A1 m c) (A2 m c) (A3 m c) (A4 m c) (A5 m c) (W10 m ρ c) (W10_v2 m ρ c hr) (W10_v5 m ρ c hr)
    (dinv10 m ρ c hr hE) (ew10 m ρ c hE) (W10_arg0 m ρ c)

end Cert.Bridge

end
-- ==== Proof.CombKernel.lean ====
/-
  The second kernel region (the Chebyshev combination), read as a value: after its 25 grid points have run, its
  output array holds at `(n, j)` the combination `x · W0 + tx1 · W1 + (2 · s - x) · W2 + bias` of the region's
  operands. Grid point `t` computes rows `2000 t … 2000 t + 1999` from the same rows of `x`, `tx1` and `s` and
  from the whole weight and bias arrays; the blocks tile the array.
-/
import proofs.«416838_j24919400251997_4_alg».proof.Proof.Gen.KernelIdeal.Frame
import proofs.«416838_j24919400251997_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombValue

open Idealize.ShloMosaic Idealize.ShloMosaic.TcCoe Idealize.SL.Sem Idealize.ShloMosaic.ValueIdx
open Cert.KernelIdeal Cert.KernelIdeal.Gen

/-! ## One block product at an index -/

/-- Row coordinate of a left operand's index in a block product: the result's row. -/
theorem prod_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Column coordinate of a left operand's index: the summation index. -/
theorem prod_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Row coordinate of a right operand's index: the summation index. -/
theorem prod_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Column coordinate of a right operand's index: the result's column. -/
theorem prod_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into a zero accumulator, at `(p, q)`: the sum over `k` of `a (p, k) * b (k, q)`. -/
theorem blockProd_apply (a : FVec Ideal S2000x128 .f32) (b : FVec Ideal S128x128 .f32) (p : Fin 2000) (q : Fin 128) :
    matmul dot_S2000x128_S128x128_S2000x128_1_0_0_1_n_n (some .fp32) a b (constant (F := Ideal) S2000x128 .f32 0x00000000#32) (ix2 p q)
      = ∑ k : Fin 128, a (ix2 p k) * b (ix2 k q) := by
  show FloatOps.matmul dot_S2000x128_S128x128_S2000x128_1_0_0_1_n_n (some .fp32) a b (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact prod_lhs_row _ _
    | ⟨1, _⟩ => exact (prod_lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (prod_rhs_row _ _).trans hk
    | ⟨1, _⟩ => exact prod_rhs_col _ _)
  rw [el, er]

/-! ## The weight slabs and the payload at an index -/

/-- Slab `a` of the weight array, loaded as a `1 × 128 × 128` vector: at `(0, k, q)` it is the array at `(a, k, q)`. -/
theorem slab0_apply (w : Vec Ideal S3x128x128 .f32) (k q : Fin 128) :
    (View.ld w r1_1 : Vec Ideal S1x128x128 .f32) (ix3 (0 : Fin 1) k q) = w (ix3 (0 : Fin 3) k q) := by
  show w (r1_1.idx (ix3 (0 : Fin 1) k q)) = _
  refine congrArg w (funext fun a => Fin.ext ?_)
  match a with
  | ⟨0, _⟩ => rfl
  | ⟨1, _⟩ => show 0 + 1 * k.val = k.val; omega
  | ⟨2, _⟩ => show 0 + 1 * q.val = q.val; omega

theorem slab1_apply (w : Vec Ideal S3x128x128 .f32) (k q : Fin 128) :
    (View.ld w r1_2 : Vec Ideal S1x128x128 .f32) (ix3 (0 : Fin 1) k q) = w (ix3 (1 : Fin 3) k q) := by
  show w (r1_2.idx (ix3 (0 : Fin 1) k q)) = _
  refine congrArg w (funext fun a => Fin.ext ?_)
  match a with
  | ⟨0, _⟩ => rfl
  | ⟨1, _⟩ => show 0 + 1 * k.val = k.val; omega
  | ⟨2, _⟩ => show 0 + 1 * q.val = q.val; omega

theorem slab2_apply (w : Vec Ideal S3x128x128 .f32) (k q : Fin 128) :
    (View.ld w r1_3 : Vec Ideal S1x128x128 .f32) (ix3 (0 : Fin 1) k q) = w (ix3 (2 : Fin 3) k q) := by
  show w (r1_3.idx (ix3 (0 : Fin 1) k q)) = _
  refine congrArg w (funext fun a => Fin.ext ?_)
  match a with
  | ⟨0, _⟩ => rfl
  | ⟨1, _⟩ => show 0 + 1 * k.val = k.val; omega
  | ⟨2, _⟩ => show 0 + 1 * q.val = q.val; omega

/-- The body's arithmetic at `(p, q)` of a block: the three products summed in order, plus the bias row. -/
theorem payload_apply (x0 x1 x2 : Vec Ideal S2000x128 .f32) (v8 v10 v12 : Vec Ideal S1x128x128 .f32) (x4 : Vec Ideal S1x128 .f32)
    (p : Fin 2000) (q : Fin 128) :
    k1_pay1 (F := Ideal) x0 x1 x2 v8 v10 v12 x4 (ix2 p q)
      = (((∑ k : Fin 128, x0 (ix2 p k) * v8 (ix3 (0 : Fin 1) k q)) + (∑ k : Fin 128, x1 (ix2 p k) * v10 (ix3 (0 : Fin 1) k q)))
          + (∑ k : Fin 128, (Ideal.ofBits .f32 0x40000000#32 * x2 (ix2 p k) - x0 (ix2 p k)) * v12 (ix3 (0 : Fin 1) k q)))
        + x4 (ix2 (0 : Fin 1) q) := by
  unfold k1_pay1
  simp only [shapeCast_self]
  rw [addf_apply, addf_apply, addf_apply, blockProd_apply, blockProd_apply, blockProd_apply, broadcastTo_1b_ab_apply]
  simp only [shapeCast_1ab_ab_apply, subf_apply, mulf_apply, broadcast_apply]
  rfl

/-! ## From blocks to the array -/

theorem zeros2 : (![0, 0] : Fin 2 → Nat) = fun _ => 0 := funext fun a => by fin_cases a <;> rfl

/-- The region's result as one function of its operand arrays: the Chebyshev combination, index by index. -/
abbrev combArr (x tx1 s : S50000x128.Idx → EReal) (wc : S3x128x128.Idx → EReal) (bias : S1x128.Idx → EReal) :
    S50000x128.Idx → EReal := fun i =>
  Cert.Spec.chebCombine (fun n k => x (ix2 n k)) (fun n k => tx1 (ix2 n k)) (fun n k => s (ix2 n k))
    (fun a k j => wc (ix3 a k j)) (fun j => bias (ix2 0 j)) (i 0) (i 1)

/-- One entry of one block: if row `p` of the three row blocks is row `n` of the three arrays, and the weight and bias
    blocks are the whole arrays, the body's arithmetic at `(p, q)` is the combination at `(n, q)`. -/
theorem point_apply (X TX S : S50000x128.Idx → EReal) (W : S3x128x128.Idx → EReal) (B : S1x128.Idx → EReal)
    (x0 x1 x2 : Vec Ideal S2000x128 .f32) (x3 : Vec Ideal S3x128x128 .f32) (x4 : Vec Ideal S1x128 .f32)
    (n : Fin 50000) (p : Fin 2000) (q : Fin 128)
    (h0 : ∀ k : Fin 128, x0 (ix2 p k) = X (ix2 n k))
    (h1 : ∀ k : Fin 128, x1 (ix2 p k) = TX (ix2 n k))
    (h2 : ∀ k : Fin 128, x2 (ix2 p k) = S (ix2 n k))
    (h3 : ∀ (a : Fin 3) (k j : Fin 128), x3 (ix3 a k j) = W (ix3 a k j))
    (h4 : ∀ j : Fin 128, x4 (ix2 (0 : Fin 1) j) = B (ix2 (0 : Fin 1) j)) :
    k1_pay1 (F := Ideal) x0 x1 x2 (View.ld x3 r1_1) (View.ld x3 r1_2) (View.ld x3 r1_3) x4 (ix2 p q)
      = combArr X TX S W B (ix2 n q) := by
  rw [payload_apply, h4 q]
  show _ = (((∑ k : Fin 128, X (ix2 n k) * W (ix3 (0 : Fin 3) k q)) + (∑ k : Fin 128, TX (ix2 n k) * W (ix3 (1 : Fin 3) k q)))
      + (∑ k : Fin 128, (Ideal.ofBits .f32 0x40000000#32 * S (ix2 n k) - X (ix2 n k)) * W (ix3 (2 : Fin 3) k q)))
    + B (ix2 (0 : Fin 1) q)
  refine congrArg (· + B (ix2 (0 : Fin 1) q)) (congrArg₂ (· + ·) (congrArg₂ (· + ·) ?_ ?_) ?_)
  · exact Finset.sum_congr rfl fun k _ => by rw [h0 k, slab0_apply, h3]
  · exact Finset.sum_congr rfl fun k _ => by rw [h1 k, slab1_apply, h3]
  · exact Finset.sum_congr rfl fun k _ => by rw [h2 k, h0 k, slab2_apply, h3]

/-- The index maps over the grid: the three row windows and the output move one block of rows per point; the weight
    and bias windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-! Each window's block at point `t`, read off its array: the three row windows hold rows `2000 t … 2000 t + 1999`,
    the weight and bias windows the whole arrays. -/

theorem xBlock_apply (c : Dev nD) (t : Fin cfg1.N) (p : Fin 2000) (k : Fin 128) (n : Fin 50000)
    (hn : n.val = 2000 * t.val + p.val) :
    (iblk1 V c 0 t : Vec Ideal S2000x128 .f32) (ix2 p k) = (V c main_arg0 : S50000x128.Idx → EReal) (ix2 n k) := by
  obtain ⟨e0, e1, -⟩ := idx_facts t
  show V c main_arg0 (((cfg1.win 0).blk t).view.emb (ix2 p k)) = V c main_arg0 _
  refine congrArg (V c main_arg0) (funext fun a => Fin.ext ?_)
  match a with
  | ⟨0, _⟩ => show win1_0.index t (0 : Fin 2) * 2000 + 1 * p.val = n.val; omega
  | ⟨1, _⟩ => show win1_0.index t (1 : Fin 2) * 128 + 1 * k.val = k.val; omega

theorem tx1Block_apply (c : Dev nD) (t : Fin cfg1.N) (p : Fin 2000) (k : Fin 128) (n : Fin 50000)
    (hn : n.val = 2000 * t.val + p.val) :
    (iblk1 V c 1 t : Vec Ideal S2000x128 .f32) (ix2 p k) = (V c main_v65 : S50000x128.Idx → EReal) (ix2 n k) := by
  obtain ⟨-, -, e0, e1, -⟩ := idx_facts t
  show V c main_v65 (((cfg1.win 1).blk t).view.emb (ix2 p k)) = V c main_v65 _
  refine congrArg (V c main_v65) (funext fun a => Fin.ext ?_)
  match a with
  | ⟨0, _⟩ => show win1_1.index t (0 : Fin 2) * 2000 + 1 * p.val = n.val; omega
  | ⟨1, _⟩ => show win1_1.index t (1 : Fin 2) * 128 + 1 * k.val = k.val; omega

theorem sBlock_apply (c : Dev nD) (t : Fin cfg1.N) (p : Fin 2000) (k : Fin 128) (n : Fin 50000)
    (hn : n.val = 2000 * t.val + p.val) :
    (iblk1 V c 2 t : Vec Ideal S2000x128 .f32) (ix2 p k) = (V c main_v78 : S50000x128.Idx → EReal) (ix2 n k) := by
  obtain ⟨-, -, -, -, e0, e1, -⟩ := idx_facts t
  show V c main_v78 (((cfg1.win 2).blk t).view.emb (ix2 p k)) = V c main_v78 _
  refine congrArg (V c main_v78) (funext fun a => Fin.ext ?_)
  match a with
  | ⟨0, _⟩ => show win1_2.index t (0 : Fin 2) * 2000 + 1 * p.val = n.val; omega
  | ⟨1, _⟩ => show win1_2.index t (1 : Fin 2) * 128 + 1 * k.val = k.val; omega

theorem weightBlock_apply (c : Dev nD) (t : Fin cfg1.N) (a : Fin 3) (k j : Fin 128) :
    (iblk1 V c 3 t : Vec Ideal S3x128x128 .f32) (ix3 a k j) = (V c main_arg6 : S3x128x128.Idx → EReal) (ix3 a k j) := by
  obtain ⟨-, -, -, -, -, -, e0, e1, e2, -⟩ := idx_facts t
  show V c main_arg6 (((cfg1.win 3).blk t).view.emb (ix3 a k j)) = V c main_arg6 _
  refine congrArg (V c main_arg6) (funext fun d => Fin.ext ?_)
  match d with
  | ⟨0, _⟩ => show win1_3.index t (0 : Fin 3) * 3 + 1 * a.val = a.val; omega
  | ⟨1, _⟩ => show win1_3.index t (1 : Fin 3) * 128 + 1 * k.val = k.val; omega
  | ⟨2, _⟩ => show win1_3.index t (2 : Fin 3) * 128 + 1 * j.val = j.val; omega

theorem biasBlock_apply (c : Dev nD) (t : Fin cfg1.N) (u : Fin 1) (j : Fin 128) :
    (iblk1 V c 4 t : Vec Ideal S1x128 .f32) (ix2 u j) = (V c main_v79 : S1x128.Idx → EReal) (ix2 u j) := by
  obtain ⟨-, -, -, -, -, -, -, -, -, e0, e1, -⟩ := idx_facts t
  show V c main_v79 (((cfg1.win 4).blk t).view.emb (ix2 u j)) = V c main_v79 _
  refine congrArg (V c main_v79) (funext fun d => Fin.ext ?_)
  match d with
  | ⟨0, _⟩ => show win1_4.index t (0 : Fin 2) * 1 + 1 * u.val = u.val; omega
  | ⟨1, _⟩ => show win1_4.index t (1 : Fin 2) * 128 + 1 * j.val = j.val; omega

/-- What grid point `t` writes back is block `t` of the combination of the arrays as the region finds them. -/
theorem flushed_comb (c : Dev nD) (t : Fin cfg1.N) :
    (dat1 (F := Ideal) V c).flushed 5 t
      = ((cfg1.win 5).blk t).view.read (Elt Ideal)
          (combArr (V c main_arg0) (V c main_v65) (V c main_v78) (V c main_arg6) (V c main_v79)) := by
  show (cfg1.win 5).cut (grid1.coords t) ((dat1 V c).after 5 t) = _
  rw [after1_5]
  unfold out1_5
  rw [View.canon_unit_zero zeros2]
  simp only [View.ld_unit_zero (S := S2000x128) zeros2, View.ld_unit_zero (S := S1x128) zeros2]
  obtain ⟨-, -, -, -, -, -, -, -, -, -, -, e50, e51⟩ := idx_facts t
  have ht : t.val < 25 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have hrow : 2000 * t.val + p.val < 50000 := by omega
  have hi : ((cfg1.win 5).blk t).view.emb (ix2 p q) = ix2 (⟨2000 * t.val + p.val, hrow⟩ : Fin 50000) q := by
    funext a; apply Fin.ext
    match a with
    | ⟨0, _⟩ => show win1_5.index t (0 : Fin 2) * 2000 + 1 * p.val = 2000 * t.val + p.val; omega
    | ⟨1, _⟩ => show win1_5.index t (1 : Fin 2) * 128 + 1 * q.val = q.val; omega
  show k1_pay1 (F := Ideal) (iblk1 V c 0 t) (iblk1 V c 1 t) (iblk1 V c 2 t) (View.ld (iblk1 V c 3 t) r1_1) (View.ld (iblk1 V c 3 t) r1_2) (View.ld (iblk1 V c 3 t) r1_3) (iblk1 V c 4 t) (ix2 p q)
      = combArr (V c main_arg0) (V c main_v65) (V c main_v78) (V c main_arg6) (V c main_v79) (((cfg1.win 5).blk t).view.emb (ix2 p q))
  rw [hi]
  exact point_apply (V c main_arg0) (V c main_v65) (V c main_v78) (V c main_arg6) (V c main_v79)
    (iblk1 V c 0 t) (iblk1 V c 1 t) (iblk1 V c 2 t) (iblk1 V c 3 t) (iblk1 V c 4 t) ⟨2000 * t.val + p.val, hrow⟩ p q
    (fun k => xBlock_apply V c t p k _ rfl) (fun k => tx1Block_apply V c t p k _ rfl) (fun k => sBlock_apply V c t p k _ rfl)
    (fun a k j => weightBlock_apply V c t a k j) (fun j => biasBlock_apply V c t 0 j)

/-- An index of the output array is in point `t`'s block iff each coordinate is in the block's range on its axis. -/
theorem mem_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v80).slice (win1_5.rect t)).set ↔ _
  rw [View.set_slice_whole, Rect.mem_set_unit]
  exact Iff.rfl

/-- Every index of the output array is in the block of some point that writes back: row `r` in that of point `r / 2000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 :=
    ⟨⟨(i 0).val / 2000, by show (i 0).val / 2000 < grid1.N; rw [hN]; omega⟩, rfl⟩
  obtain ⟨-, -, -, -, -, -, -, -, -, -, -, e50, e51⟩ := idx_facts t
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the last grid point is the combination of the operand arrays. -/
theorem comb_array (c : Dev nD) :
    (dat1 (F := Ideal) V c).arrAt 5 cfg1.N
      = combArr (V c main_arg0) (V c main_v65) (V c main_v78) (V c main_arg6) (V c main_v79) :=
  (dat1 (F := Ideal) V c).arrAt_eq_of_cover 5 _ (fun t _ => flushed_comb V c t) covered

/-- The region's output array after its last grid point, at `(n, j)`: the Chebyshev combination of its operands. -/
theorem comb_final (c : Dev nD) (n : Fin 50000) (j : Fin 128) :
    ((dat1 (F := Ideal) V c).arrAt 5 cfg1.N : S50000x128.Idx → EReal) (ix2 n j)
      = Cert.Spec.chebCombine (fun n k => (V c main_arg0 : S50000x128.Idx → EReal) (ix2 n k))
          (fun n k => (V c main_v65 : S50000x128.Idx → EReal) (ix2 n k))
          (fun n k => (V c main_v78 : S50000x128.Idx → EReal) (ix2 n k))
          (fun a k j => (V c main_arg6 : S3x128x128.Idx → EReal) (ix3 a k j))
          (fun j => (V c main_v79 : S1x128.Idx → EReal) (ix2 0 j)) n j :=
  congrFun (comb_array V c) (ix2 n j)

end Cert.KernelIdeal.CombValue

end
-- ==== Proof.BridgeOut.lean ====
/-
  The second kernel region meets the reference: entered with `x`, the two propagated arrays, the Chebyshev weights and
  the bias reshaped to a row, its output array is entry by entry the reference's result, once the two propagated
  arrays are the reference's.
-/
import proofs.«416838_j24919400251997_4_alg».proof.Proof.BridgeDefs
import proofs.«416838_j24919400251997_4_alg».proof.Proof.CombKernel
import proofs.«416838_j24919400251997_4_alg».proof.Proof.RefValues
import proofs.«416838_j24919400251997_4_alg».proof.Proof.HostLeaves
import proofs.«416838_j24919400251997_4_alg».proof.Proof.HostReads

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The program's first result, the second region's output array after its last grid point, is the reference's
    result, given that the region is entered with the reference's two propagated arrays. -/
theorem out_eq (c : Dev nD)
    (h1 : (V11 m ρ c main_v65 : S50000x128.Idx → EReal)
      = Cert.ReferenceIdeal.Read.val_main_v74 (F := Ideal) (A0 m c) (A1 m c) (A2 m c) (A3 m c) (A4 m c) (A5 m c))
    (h2 : (V11 m ρ c main_v78 : S50000x128.Idx → EReal)
      = Cert.ReferenceIdeal.Read.val_main_v87 (F := Ideal) (A0 m c) (A1 m c) (A2 m c) (A3 m c) (A4 m c) (A5 m c)) :
    (W12 m ρ c (Proc.devRef .tc main_v80) : S50000x128.Idx → EReal)
      = Cert.ReferenceIdeal.Read.val_main_v104 (F := Ideal) (A0 m c) (A1 m c) (A2 m c) (A3 m c) (A4 m c) (A5 m c)
          (A6 m c) (A7 m c) := by
  funext i
  obtain ⟨n, j, rfl⟩ : ∃ (n : Fin 50000) (j : Fin 128), i = ix2 n j := ⟨i 0, i 1, eq_ix2 i⟩
  have hW : (W12 m ρ c (Proc.devRef .tc main_v80) : S50000x128.Idx → EReal)
      = ((dat1 (F := Ideal) (V11 m ρ) c).arrAt 5 cfg1.N : S50000x128.Idx → EReal) := W12_arr m ρ c 5
  rw [hW, Cert.KernelIdeal.CombValue.comb_final (V11 m ρ) c n j, Cert.ReferenceIdeal.RefValue.ref_comb]
  rw [h1, h2, Cert.KernelIdeal.HostLeaves.V11_arg0 m ρ c, Cert.KernelIdeal.HostLeaves.V11_arg6 m ρ c,
    Cert.KernelIdeal.HostLeaves.V11_v79 m ρ c]
  have hb : (fun j : Fin 128 => (shapeCast S1x128 (m ((c : Thread nD τ).loc main_arg7) : FVec Ideal S128 .f32)
      shapeCasts_S128_S1x128 : S1x128.Idx → EReal) (ix2 0 j)) = fun j => A7 m c (ix1 j) :=
    funext fun j => Cert.KernelIdeal.HostReads.cast_b1 _ _ j
  rw [hb]

end Cert.Bridge

end
-- ==== Proof.lean ====
/-
  An edge-weighted Chebyshev graph layer: a kernel program of two fused dense regions against its plain reference,
  equal over the extended reals.

  Both programs take node features `x`, an edge list, the weights of a two-layer edge network and three Chebyshev
  weight matrices with a bias. Each edge gets a weight, the logistic of a small network applied to the features of
  its two end nodes; the weights give a symmetrically normalised graph operator `L` (degrees by scatter-add, inverse
  square roots, `-d⁻¹ᐟ²[row] · w · d⁻¹ᐟ²[col]`); the result is `x · W0 + (L x) · W1 + (2 · L (L x) - x) · W2 + bias`,
  returned with the edge weights. The kernel program computes the edge network in one region over blocks of 16000
  edges and the final combination in another over blocks of 2000 nodes, and leaves the gathers and scatter-adds to the
  host, where they are the reference's own operations. It clamps the node numbers of the edge list to `[0, 49999]`
  first; the reference does not, so the two agree where every entry is a node number, which the precondition states.

  The proof: the two regions' values (each output array one function of the region's operands, block by block), the
  host operations around them read back, the reference's stages, and the two dense maps shown equal to one
  specification index by index; everything between is the same operations applied to equal operands. No law of the
  extended reals is needed: both sides sum the same products in the same order.
-/
import proofs.«416838_j24919400251997_4_alg».proof.Defs
import proofs.«416838_j24919400251997_4_alg».proof.Proof.Gen.Kernel
import proofs.«416838_j24919400251997_4_alg».proof.Proof.Gen.Kernel.Skeleton
import proofs.«416838_j24919400251997_4_alg».proof.Proof.Gen.Kernel.Launch
import proofs.«416838_j24919400251997_4_alg».proof.Proof.Gen.Kernel.Points
import proofs.«416838_j24919400251997_4_alg».proof.Proof.Gen.Kernel.Frame
import proofs.«416838_j24919400251997_4_alg».proof.Proof.Gen.KernelIdeal
import proofs.«416838_j24919400251997_4_alg».proof.Proof.Gen.KernelIdeal.Skeleton
import proofs.«416838_j24919400251997_4_alg».proof.Proof.Gen.KernelIdeal.Launch
import proofs.«416838_j24919400251997_4_alg».proof.Proof.Gen.KernelIdeal.Points
import proofs.«416838_j24919400251997_4_alg».proof.Proof.Gen.KernelIdeal.Frame
import proofs.«416838_j24919400251997_4_alg».proof.Proof.Gen.ReferenceIdeal
import proofs.«416838_j24919400251997_4_alg».proof.Proof.Gen.ReferenceIdeal.Run
import proofs.«416838_j24919400251997_4_alg».proof.Proof.Gen.ReferenceIdeal.Read
import proofs.«416838_j24919400251997_4_alg».proof.Proof.Gen.Pre_finite_inputs
import proofs.«416838_j24919400251997_4_alg».proof.Proof.IndexRange
import proofs.«416838_j24919400251997_4_alg».proof.Proof.RunAll
import proofs.«416838_j24919400251997_4_alg».proof.Proof.BridgeDefs
import proofs.«416838_j24919400251997_4_alg».proof.Proof.BridgeEdge
import proofs.«416838_j24919400251997_4_alg».proof.Proof.BridgeMid
import proofs.«416838_j24919400251997_4_alg».proof.Proof.BridgeOut
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- The idealized kernel program runs and leaves its arguments as they were. -/
theorem frame_kernel_ideal : Cert.frame_KernelIdeal := fun m ρ _ => Cert.KernelIdeal.Gen.frame m ρ

/-- The reference runs and leaves its arguments as they were: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the arguments, with every edge-list entry a node number, both programs end with
    the same two results: the combined features and the edge weights. -/
theorem algebraic : Cert.algebraic_KernelIdeal_ReferenceIdeal := by
  intro m ρ m' ρ' hpre hagree
  have hr : ∀ c, Cert.Bridge.InRange m c := fun c i => Cert.IndexRange.index_range m hpre c i
  have hE : ∀ c, Cert.Bridge.EdgeAgree m ρ c := fun c => Cert.Bridge.edge_agree m ρ c (hr c)
  refine ⟨fun c => Cert.KernelIdeal.Gen.W12 m ρ c (Proc.devRef .tc Cert.KernelIdeal.main_v80),
    fun c => Cert.KernelIdeal.Gen.W12 m ρ c (Proc.devRef .tc Cert.KernelIdeal.main_v25), ?_, ?_⟩
  · refine (θ_run Cert.KernelIdeal.defs _ _).mono (fun r h c => ⟨h c Cert.KernelIdeal.main_v80 (by decide),
      h c Cert.KernelIdeal.main_v25 (by decide),
      (h c Cert.KernelIdeal.main_arg0 (by decide)).trans (Cert.KernelIdeal.Gen.W12_main_arg0 m ρ c),
      (h c Cert.KernelIdeal.main_arg1 (by decide)).trans (Cert.KernelIdeal.Gen.W12_main_arg1 m ρ c),
      (h c Cert.KernelIdeal.main_arg2 (by decide)).trans (Cert.KernelIdeal.Gen.W12_main_arg2 m ρ c),
      (h c Cert.KernelIdeal.main_arg3 (by decide)).trans (Cert.KernelIdeal.Gen.W12_main_arg3 m ρ c),
      (h c Cert.KernelIdeal.main_arg4 (by decide)).trans (Cert.KernelIdeal.Gen.W12_main_arg4 m ρ c),
      (h c Cert.KernelIdeal.main_arg5 (by decide)).trans (Cert.KernelIdeal.Gen.W12_main_arg5 m ρ c),
      (h c Cert.KernelIdeal.main_arg6 (by decide)).trans (Cert.KernelIdeal.Gen.W12_main_arg6 m ρ c),
      (h c Cert.KernelIdeal.main_arg7 (by decide)).trans (Cert.KernelIdeal.Gen.W12_main_arg7 m ρ c)⟩)
      (Cert.KernelIdeal.RunAll.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · -- the first result: the reference's last stage at arguments that agree with the kernel program's
      rw [Cert.ReferenceIdeal.Read.val_main_v104_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (Cert.Bridge.out_eq m ρ c (Cert.Bridge.tx1_eq m ρ c (hr c) (hE c)) (Cert.Bridge.s_eq m ρ c (hr c) (hE c))).symm
    · -- the second result: the edge weights
      rw [Cert.ReferenceIdeal.Read.val_main_v34_eq, (hagree c).1, (hagree c).2.1, (hagree c).2.2.1, (hagree c).2.2.2.1,
        (hagree c).2.2.2.2.1, (hagree c).2.2.2.2.2.1]
      exact ((Cert.KernelIdeal.Gen.W12_of_ne m ρ c Cert.KernelIdeal.main_v25 (by decide)).trans
        (Cert.Bridge.ew_out m ρ c (hr c) (hE c))).symm

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, trivial, algebraic⟩

end Cert.Proof

end
